-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S1x128 : Shape := ⟨2, ![1, 128]⟩

abbrev nBuf : Space → Nat
  | .hbm => 76
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S128x128, .f32⟩
  | .local _ .vmem, ⟨11, _⟩ => ⟨S128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x1, .f32⟩
  | .local _ .vmem, ⟨23, _⟩ => ⟨S10000x1, .f32⟩
  | .local _ .vmem, ⟨24, _⟩ => ⟨S128x128, .f32⟩
  | .local _ .vmem, ⟨25, _⟩ => ⟨S128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x1, .f32⟩
  | .local _ .vmem, ⟨31, _⟩ => ⟨S10000x1, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x1, .f32⟩
  | .local _ .vmem, ⟨37, _⟩ => ⟨S10000x1, .f32⟩
  | .local _ .vmem, ⟨38, _⟩ => ⟨S128x128, .f32⟩
  | .local _ .vmem, ⟨39, _⟩ => ⟨S128, .f32⟩
  | .local _ .vmem, ⟨40, _⟩ => ⟨S10000x128, .f32⟩
  | .local _ .vmem, ⟨41, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S100000x128.size a
  hwx3_4 : ∀ i : grid3.Coords, EltTy.bits .f32 = 32 ∨ (Rect.block (s := S100000x128) S10000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x128.size a ≤ S100000x128.size a
  hwx5_4 : ∀ i : grid5.Coords, EltTy.bits .f32 = 32 ∨ (Rect.block (s := S100000x128) S10000x128.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v36) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v47) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v48) S10000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibColBroadcast.lean ====
/-
  A column repeated along the columns, read at an entry (a general lemma: nothing here depends on a program).

  A column [A, 1] broadcast to B columns [A, B] holds at (p, q) the column's entry p: a broadcast reads a unit axis
  at 0 and every other axis at the result's coordinate.  Any sizes A, B; companion of the row form (a row [1, A]
  broadcast down B rows read at (p, q) is the row at q).
-/
import Idealize.ShloMosaic.Lib.ValueIdx
import Idealize.ShloMosaic.Lib.Pipeline.Value

noncomputable section

namespace Cert.Lib.ColBroadcast

open Idealize.ShloMosaic Idealize.ShloMosaic.ValueIdx

/-- A column [A, 1] broadcast to B columns, at (p, q), is the column at (p, 0). -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

end Cert.Lib.ColBroadcast

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibBcastInDim.lean ====
/-
  The host's broadcasts along a new axis, read at an entry (general lemmas: nothing here depends on a program).

  A vector of A entries laid out as one column [A, 1] (broadcast_in_dim, dimension map [0]) holds at (p, 0) the
  vector's entry p; a column [A, 1] spread over B columns (dimension map [0, 1]) holds at (p, q) the column's entry
  (p, 0); a vector of B entries laid out as one row [1, B] (dimension map [1]) holds at (0, q) the vector's entry q;
  a row [1, B] spread over A rows holds at (p, q) the row's entry (0, q); a scalar spread over any shape holds the
  scalar everywhere; and a vector recast as a column (its entries read in Proof/LibLayoutCol.lean) is the same array as
  the vector laid out as a column.
  Any sizes, any element type.
-/
import Idealize.ShloMosaic.Lib.ValueIdx
import Idealize.ShloMosaic.Lib.Pipeline.Value
import proofs.«152195_j21105469293089_1_alg».proof.Proof.LibLayoutCol

noncomputable section

namespace Cert.Lib.BcastInDim

open Idealize.ShloMosaic Idealize.ShloMosaic.ValueIdx

variable {α : Type} {A B : Nat}

/-- A vector laid out as a column, at (p, 0), is the vector at p. -/
theorem vecToCol_apply (v : (⟨1, ![A]⟩ : Shape).Idx → α)
    (h : (⟨1, ![A]⟩ : Shape).BroadcastsInDim ⟨2, ![A, 1]⟩ (![0] : Fin 1 → Fin 2)) (p : Fin A) (z : Fin 1) :
    broadcastInDim ⟨2, ![A, 1]⟩ (![0] : Fin 1 → Fin 2) h v (ix2 p z) = v (ix1 p) := by
  refine broadcastInDim_apply (![0] : Fin 1 → Fin 2) h v (ix2 p z) (ix1 p) ?_
  intro d
  match d with
  | ⟨0, _⟩ =>
    show p.val = if A = 1 then 0 else p.val
    split
    · have := p.isLt; omega
    · rfl

/-- A column spread over B columns, at (p, q), is the column at (p, 0). -/
theorem colSpread_apply (c : (⟨2, ![A, 1]⟩ : Shape).Idx → α)
    (h : (⟨2, ![A, 1]⟩ : Shape).BroadcastsInDim ⟨2, ![A, B]⟩ (![0, 1] : Fin 2 → Fin 2)) (p : Fin A) (q : Fin B) :
    broadcastInDim ⟨2, ![A, B]⟩ (![0, 1] : Fin 2 → Fin 2) h c (ix2 p q) = c (ix2 p (0 : Fin 1)) := by
  refine broadcastInDim_apply (![0, 1] : Fin 2 → Fin 2) h c (ix2 p q) (ix2 p (0 : Fin 1)) ?_
  intro d
  match d with
  | ⟨0, _⟩ =>
    show p.val = if A = 1 then 0 else p.val
    split
    · have := p.isLt; omega
    · rfl
  | ⟨1, _⟩ => simp

/-- A vector laid out as a row, at (0, q), is the vector at q. -/
theorem vecToRow_apply (v : (⟨1, ![B]⟩ : Shape).Idx → α)
    (h : (⟨1, ![B]⟩ : Shape).BroadcastsInDim ⟨2, ![1, B]⟩ (![1] : Fin 1 → Fin 2)) (z : Fin 1) (q : Fin B) :
    broadcastInDim ⟨2, ![1, B]⟩ (![1] : Fin 1 → Fin 2) h v (ix2 z q) = v (ix1 q) := by
  refine broadcastInDim_apply (![1] : Fin 1 → Fin 2) h v (ix2 z q) (ix1 q) ?_
  intro d
  match d with
  | ⟨0, _⟩ =>
    show q.val = if B = 1 then 0 else q.val
    split
    · have := q.isLt; omega
    · rfl

/-- A row spread over A rows, at (p, q), is the row at (0, q). -/
theorem rowSpread_apply (r : (⟨2, ![1, B]⟩ : Shape).Idx → α)
    (h : (⟨2, ![1, B]⟩ : Shape).BroadcastsInDim ⟨2, ![A, B]⟩ (![0, 1] : Fin 2 → Fin 2)) (p : Fin A) (q : Fin B) :
    broadcastInDim ⟨2, ![A, B]⟩ (![0, 1] : Fin 2 → Fin 2) h r (ix2 p q) = r (ix2 (0 : Fin 1) q) := by
  refine broadcastInDim_apply (![0, 1] : Fin 2 → Fin 2) h r (ix2 p q) (ix2 (0 : Fin 1) q) ?_
  intro d
  match d with
  | ⟨0, _⟩ => simp
  | ⟨1, _⟩ =>
    show q.val = if B = 1 then 0 else q.val
    split
    · have := q.isLt; omega
    · rfl

/-- A scalar spread over a shape holds the scalar at every index. -/
theorem splat_apply {s : Shape} (x : (⟨0, ![]⟩ : Shape).Idx → α)
    (h : (⟨0, ![]⟩ : Shape).BroadcastsInDim s (![] : Fin 0 → Fin s.rank)) (j : s.Idx) :
    broadcastInDim s (![] : Fin 0 → Fin s.rank) h x j = x ix0 :=
  broadcastInDim_apply (![] : Fin 0 → Fin s.rank) h x j ix0 fun a => a.elim0

/-- A vector recast as a column IS the vector laid out as a column. -/
theorem vecAsCol_eq_vecToCol (v : (⟨1, ![A]⟩ : Shape).Idx → α)
    (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ v h = broadcastInDim ⟨2, ![A, 1]⟩ (![0] : Fin 1 → Fin 2) h' v := by
  funext j
  obtain ⟨p, z, rfl⟩ : ∃ (p : Fin A) (z : Fin 1), j = ix2 p z := ⟨j 0, j 1, eq_ix2 j⟩
  rw [Cert.Lib.LayoutCol.colCast_apply, vecToCol_apply]

end Cert.Lib.BcastInDim

end
-- ==== Proof.GraphLayer.lean ====
/-
  One layer of a degree-normalised graph convolution, at the exact values (no program here).

  With h an [A, K] matrix of node features and n an [A, 1] column of per-node factors, the scaled features are
  s[p, k] = h[p, k] · n[p, 0]; with W a [K, C] weight and b a bias of C entries, the affine image of the scaled
  features is y[p, q] = (Σ_k s[p, k] · W[k, q]) + b[q], and its rectified form max(y[p, q], 0).  These three entry
  forms are what BOTH spellings below compute, entry by entry, with no law of arithmetic in between: the sum is the
  same sum of the same products in both, so nothing here asks whether a value is finite.

  The host spelling works on whole arrays: the column spread over the columns and multiplied in, a dot_general,
  the bias laid out as one row and spread down the rows, a maximum against a spread zero.  The blocked spelling
  works on a block of R rows: the column block broadcast, a matrix-unit product into a zero accumulator, the bias
  recast to one row and broadcast down, a maximum against a scalar zero splat.  Every entry form depends only on
  row p of h and n, which is what lets a block of rows be computed from the same block of rows (the congruence
  lemmas at the end).
-/
import Idealize.ShloMosaic.Lib.ValueIdx
import Idealize.ShloMosaic.Lib.Pipeline.Value
import Idealize.ShloMosaic.PureOps.Ideal.Laws
import proofs.«152195_j21105469293089_1_alg».proof.Proof.LibMatmul
import proofs.«152195_j21105469293089_1_alg».proof.Proof.LibLayout
import proofs.«152195_j21105469293089_1_alg».proof.Proof.LibColBroadcast
import proofs.«152195_j21105469293089_1_alg».proof.Proof.LibBcastInDim

noncomputable section

namespace Cert.GraphLayer

open Idealize.ShloMosaic Idealize.ShloMosaic.ValueIdx

variable {A K C : Nat}

/-! ## The entry forms -/

/-- The exact value of the word 0.0. -/
abbrev zeroF : EReal := Ideal.ofBits .f32 0x00000000#32

/-- Entry (p, k) of the features scaled row by row: h[p, k] · n[p, 0]. -/
def scaledAt (h : FVec Ideal ⟨2, ![A, K]⟩ .f32) (n : FVec Ideal ⟨2, ![A, 1]⟩ .f32) (p : Fin A) (k : Fin K) : EReal :=
  (h (ix2 p k) : EReal) * (n (ix2 p (0 : Fin 1)) : EReal)

/-- Entry (p, q) of the affine image of the scaled features: (Σ_k s[p, k] · W[k, q]) + b[q]. -/
def affineAt (a : FVec Ideal ⟨2, ![A, K]⟩ .f32) (n : FVec Ideal ⟨2, ![A, 1]⟩ .f32) (W : FVec Ideal ⟨2, ![K, C]⟩ .f32)
    (b : FVec Ideal ⟨1, ![C]⟩ .f32) (p : Fin A) (q : Fin C) : EReal :=
  (∑ k : Fin K, scaledAt a n p k * (W (ix2 k q) : EReal)) + (b (ix1 q) : EReal)

/-! ## The host spelling, as whole-array functions -/

/-- The features times the column spread over the columns. -/
def hostScale (hc : (⟨2, ![A, 1]⟩ : Shape).BroadcastsInDim ⟨2, ![A, K]⟩ (![0, 1] : Fin 2 → Fin 2))
    (h : FVec Ideal ⟨2, ![A, K]⟩ .f32) (n : FVec Ideal ⟨2, ![A, 1]⟩ .f32) : FVec Ideal ⟨2, ![A, K]⟩ .f32 :=
  mulf h (broadcastInDim ⟨2, ![A, K]⟩ (![0, 1] : Fin 2 → Fin 2) hc n)

/-- The scaled features through a dot_general with the weight, plus the bias laid out as a row and spread down. -/
def hostAffine (d : DotDims ⟨2, ![A, K]⟩ ⟨2, ![K, C]⟩ ⟨2, ![A, C]⟩)
    (hc : (⟨2, ![A, 1]⟩ : Shape).BroadcastsInDim ⟨2, ![A, K]⟩ (![0, 1] : Fin 2 → Fin 2))
    (hr1 : (⟨1, ![C]⟩ : Shape).BroadcastsInDim ⟨2, ![1, C]⟩ (![1] : Fin 1 → Fin 2))
    (hr2 : (⟨2, ![1, C]⟩ : Shape).BroadcastsInDim ⟨2, ![A, C]⟩ (![0, 1] : Fin 2 → Fin 2))
    (a : FVec Ideal ⟨2, ![A, K]⟩ .f32) (n : FVec Ideal ⟨2, ![A, 1]⟩ .f32) (W : FVec Ideal ⟨2, ![K, C]⟩ .f32)
    (b : FVec Ideal ⟨1, ![C]⟩ .f32) : FVec Ideal ⟨2, ![A, C]⟩ .f32 :=
  addf (Host.dotGeneral d none (hostScale hc a n) W)
    (broadcastInDim ⟨2, ![A, C]⟩ (![0, 1] : Fin 2 → Fin 2) hr2 (broadcastInDim ⟨2, ![1, C]⟩ (![1] : Fin 1 → Fin 2) hr1 b))

/-- The maximum against a spread zero. -/
def hostRelu (hs : (⟨0, ![]⟩ : Shape).BroadcastsInDim ⟨2, ![A, C]⟩ (![] : Fin 0 → Fin 2))
    (x : FVec Ideal ⟨2, ![A, C]⟩ .f32) : FVec Ideal ⟨2, ![A, C]⟩ .f32 :=
  maximumf x (broadcastInDim ⟨2, ![A, C]⟩ (![] : Fin 0 → Fin 2) hs (constant ⟨0, ![]⟩ .f32 0x00000000#32))

theorem hostScale_apply (hc : (⟨2, ![A, 1]⟩ : Shape).BroadcastsInDim ⟨2, ![A, K]⟩ (![0, 1] : Fin 2 → Fin 2))
    (h : FVec Ideal ⟨2, ![A, K]⟩ .f32) (n : FVec Ideal ⟨2, ![A, 1]⟩ .f32) (p : Fin A) (k : Fin K) :
    hostScale hc h n (ix2 p k) = scaledAt h n p k := by
  unfold hostScale scaledAt
  rw [mulf_apply, Cert.Lib.BcastInDim.colSpread_apply]

theorem hostAffine_apply
    (hc : (⟨2, ![A, 1]⟩ : Shape).BroadcastsInDim ⟨2, ![A, K]⟩ (![0, 1] : Fin 2 → Fin 2))
    (hr1 : (⟨1, ![C]⟩ : Shape).BroadcastsInDim ⟨2, ![1, C]⟩ (![1] : Fin 1 → Fin 2))
    (hr2 : (⟨2, ![1, C]⟩ : Shape).BroadcastsInDim ⟨2, ![A, C]⟩ (![0, 1] : Fin 2 → Fin 2))
    (a : FVec Ideal ⟨2, ![A, K]⟩ .f32) (n : FVec Ideal ⟨2, ![A, 1]⟩ .f32) (W : FVec Ideal ⟨2, ![K, C]⟩ .f32)
    (b : FVec Ideal ⟨1, ![C]⟩ .f32) (p : Fin A) (q : Fin C) :
    hostAffine (DotDims.plain A K C) hc hr1 hr2 a n W b (ix2 p q) = affineAt a n W b p q := by
  unfold hostAffine affineAt
  rw [addf_apply, Cert.Lib.BcastInDim.rowSpread_apply, Cert.Lib.BcastInDim.vecToRow_apply]
  refine congrArg (· + (b (ix1 q) : EReal)) ?_
  refine (Cert.Lib.Matmul.dotGeneral_apply none HostSchedule.single (hostScale hc a n) W p q).trans ?_
  exact Finset.sum_congr rfl fun k _ => by rw [hostScale_apply]

theorem hostRelu_apply (hs : (⟨0, ![]⟩ : Shape).BroadcastsInDim ⟨2, ![A, C]⟩ (![] : Fin 0 → Fin 2))
    (x : FVec Ideal ⟨2, ![A, C]⟩ .f32) (j : (⟨2, ![A, C]⟩ : Shape).Idx) :
    hostRelu hs x j = max (x j : EReal) zeroF := by
  unfold hostRelu
  rw [maximumf_apply, Cert.Lib.BcastInDim.splat_apply, constant_apply]

/-! ## The blocked spelling, read at an entry of a block of R rows -/

variable {R : Nat}

/-- The block times its column block broadcast over the columns (the block read as it is). -/
theorem blockScale_apply (hs1 : (⟨2, ![R, 1]⟩ : Shape).ShapeCasts ⟨2, ![R, 1]⟩)
    (hb : (⟨2, ![R, 1]⟩ : Shape).Broadcasts ⟨2, ![R, K]⟩)
    (x0 : FVec Ideal ⟨2, ![R, K]⟩ .f32) (x1 : FVec Ideal ⟨2, ![R, 1]⟩ .f32) (r : Fin R) (k : Fin K) :
    mulf x0 (broadcastTo ⟨2, ![R, K]⟩ (shapeCast ⟨2, ![R, 1]⟩ x1 hs1) hb) (ix2 r k) = scaledAt x0 x1 r k := by
  unfold scaledAt
  rw [mulf_apply, shapeCast_self, Cert.Lib.ColBroadcast.bcastColMat_apply]

/-- The same with the block first recast to its own shape. -/
theorem blockScale_apply' (hs0 : (⟨2, ![R, K]⟩ : Shape).ShapeCasts ⟨2, ![R, K]⟩)
    (hs1 : (⟨2, ![R, 1]⟩ : Shape).ShapeCasts ⟨2, ![R, 1]⟩) (hb : (⟨2, ![R, 1]⟩ : Shape).Broadcasts ⟨2, ![R, K]⟩)
    (x0 : FVec Ideal ⟨2, ![R, K]⟩ .f32) (x1 : FVec Ideal ⟨2, ![R, 1]⟩ .f32) (r : Fin R) (k : Fin K) :
    mulf (shapeCast ⟨2, ![R, K]⟩ x0 hs0) (broadcastTo ⟨2, ![R, K]⟩ (shapeCast ⟨2, ![R, 1]⟩ x1 hs1) hb) (ix2 r k)
      = scaledAt x0 x1 r k := by
  rw [shapeCast_self]
  exact blockScale_apply hs1 hb x0 x1 r k

/-- The scaled block through a matrix-unit product into a zero accumulator, plus the bias recast to one row and
    broadcast down the rows. -/
theorem blockAffine_apply (hs0 : (⟨2, ![R, K]⟩ : Shape).ShapeCasts ⟨2, ![R, K]⟩)
    (hs1 : (⟨2, ![R, 1]⟩ : Shape).ShapeCasts ⟨2, ![R, 1]⟩) (hb : (⟨2, ![R, 1]⟩ : Shape).Broadcasts ⟨2, ![R, K]⟩)
    (hs8 : (⟨1, ![C]⟩ : Shape).ShapeCasts ⟨2, ![1, C]⟩) (hb8 : (⟨2, ![1, C]⟩ : Shape).Broadcasts ⟨2, ![R, C]⟩)
    (x0 : FVec Ideal ⟨2, ![R, K]⟩ .f32) (x2 : FVec Ideal ⟨2, ![R, 1]⟩ .f32) (x6 : FVec Ideal ⟨2, ![K, C]⟩ .f32)
    (x8 : FVec Ideal ⟨1, ![C]⟩ .f32) (r : Fin R) (q : Fin C) :
    addf (matmul (DotDims.plain R K C) none
          (mulf (shapeCast ⟨2, ![R, K]⟩ x0 hs0) (broadcastTo ⟨2, ![R, K]⟩ (shapeCast ⟨2, ![R, 1]⟩ x2 hs1) hb)) x6
          (constant ⟨2, ![R, C]⟩ .f32 0x00000000#32))
        (broadcastTo ⟨2, ![R, C]⟩ (shapeCast ⟨2, ![1, C]⟩ x8 hs8) hb8) (ix2 r q)
      = affineAt x0 x2 x6 x8 r q := by
  unfold affineAt
  rw [addf_apply, Cert.Lib.Layout.bcastRow_apply]
  refine congrArg (· + (x8 (ix1 q) : EReal)) ?_
  refine (Cert.Lib.Matmul.matmul_zero_apply none _ x6 r q).trans ?_
  exact Finset.sum_congr rfl fun k _ => by rw [blockScale_apply']

/-- The maximum against a scalar zero splat. -/
theorem blockRelu_apply {s : Shape} (x : FVec Ideal s .f32) (j : s.Idx) :
    maximumf x (broadcast s (Scalar.ofBits (F := Ideal) .f32 0x00000000#32)) j = max (x j : EReal) zeroF := rfl

/-! ## Row-locality: an entry of row p' of a block is the entry of the row p it was cut from -/

variable {A' : Nat}

theorem scaledAt_congr (h : FVec Ideal ⟨2, ![A, K]⟩ .f32) (n : FVec Ideal ⟨2, ![A, 1]⟩ .f32)
    (h' : FVec Ideal ⟨2, ![A', K]⟩ .f32) (n' : FVec Ideal ⟨2, ![A', 1]⟩ .f32) (p : Fin A) (p' : Fin A')
    (eh : ∀ k : Fin K, h' (ix2 p' k) = h (ix2 p k)) (en : n' (ix2 p' (0 : Fin 1)) = n (ix2 p (0 : Fin 1))) (k : Fin K) :
    scaledAt h' n' p' k = scaledAt h n p k := by
  unfold scaledAt
  rw [eh k, en]

theorem affineAt_congr (a : FVec Ideal ⟨2, ![A, K]⟩ .f32) (n : FVec Ideal ⟨2, ![A, 1]⟩ .f32)
    (a' : FVec Ideal ⟨2, ![A', K]⟩ .f32) (n' : FVec Ideal ⟨2, ![A', 1]⟩ .f32)
    (W W' : FVec Ideal ⟨2, ![K, C]⟩ .f32) (b b' : FVec Ideal ⟨1, ![C]⟩ .f32) (p : Fin A) (p' : Fin A')
    (ea : ∀ k : Fin K, a' (ix2 p' k) = a (ix2 p k)) (en : n' (ix2 p' (0 : Fin 1)) = n (ix2 p (0 : Fin 1)))
    (eW : W' = W) (eb : b' = b) (q : Fin C) :
    affineAt a' n' W' b' p' q = affineAt a n W b p q := by
  subst eW eb
  unfold affineAt
  refine congrArg (· + (b' (ix1 q) : EReal)) ?_
  exact Finset.sum_congr rfl fun k _ => by rw [scaledAt_congr a n a' n' p p' ea en k]

end Cert.GraphLayer

end
-- ==== Proof.Sizes.lean ====
/-
  The layer's whole-array functions at this network's sizes: 100000 nodes, 128 features in and out.

  scaleFn h n is the features h scaled row by row by the column n; denseFn a n W b the affine image of the scaled
  features; reluFn the rectifier.  Each is the host spelling of Proof/GraphLayer.lean at literal sizes, so its entry
  (p, q) is that file's entry form.
-/
import proofs.«152195_j21105469293089_1_alg».proof.Proof.GraphLayer

noncomputable section

namespace Cert.GraphLayer

open Idealize.ShloMosaic Idealize.ShloMosaic.ValueIdx

theorem hcol : (⟨2, ![100000, 1]⟩ : Shape).BroadcastsInDim ⟨2, ![100000, 128]⟩ (![0, 1] : Fin 2 → Fin 2) := by decide
theorem hrow1 : (⟨1, ![128]⟩ : Shape).BroadcastsInDim ⟨2, ![1, 128]⟩ (![1] : Fin 1 → Fin 2) := by decide
theorem hrow2 : (⟨2, ![1, 128]⟩ : Shape).BroadcastsInDim ⟨2, ![100000, 128]⟩ (![0, 1] : Fin 2 → Fin 2) := by decide
theorem hsplat : (⟨0, ![]⟩ : Shape).BroadcastsInDim ⟨2, ![100000, 128]⟩ (![] : Fin 0 → Fin 2) := by decide

/-- The node features scaled row by row. -/
def scaleFn (h : FVec Ideal ⟨2, ![100000, 128]⟩ .f32) (n : FVec Ideal ⟨2, ![100000, 1]⟩ .f32) :
    FVec Ideal ⟨2, ![100000, 128]⟩ .f32 := hostScale hcol h n

/-- The affine image of the scaled aggregate. -/
def denseFn (a : FVec Ideal ⟨2, ![100000, 128]⟩ .f32) (n : FVec Ideal ⟨2, ![100000, 1]⟩ .f32)
    (W : FVec Ideal ⟨2, ![128, 128]⟩ .f32) (b : FVec Ideal ⟨1, ![128]⟩ .f32) : FVec Ideal ⟨2, ![100000, 128]⟩ .f32 :=
  hostAffine (DotDims.plain 100000 128 128) hcol hrow1 hrow2 a n W b

/-- The rectifier. -/
def reluFn (x : FVec Ideal ⟨2, ![100000, 128]⟩ .f32) : FVec Ideal ⟨2, ![100000, 128]⟩ .f32 := hostRelu hsplat x

theorem scaleFn_apply (h : FVec Ideal ⟨2, ![100000, 128]⟩ .f32) (n : FVec Ideal ⟨2, ![100000, 1]⟩ .f32)
    (p : Fin 100000) (k : Fin 128) : scaleFn h n (ix2 p k) = scaledAt h n p k := hostScale_apply hcol h n p k

theorem denseFn_apply (a : FVec Ideal ⟨2, ![100000, 128]⟩ .f32) (n : FVec Ideal ⟨2, ![100000, 1]⟩ .f32)
    (W : FVec Ideal ⟨2, ![128, 128]⟩ .f32) (b : FVec Ideal ⟨1, ![128]⟩ .f32) (p : Fin 100000) (q : Fin 128) :
    denseFn a n W b (ix2 p q) = affineAt a n W b p q := hostAffine_apply hcol hrow1 hrow2 a n W b p q

theorem reluFn_apply (x : FVec Ideal ⟨2, ![100000, 128]⟩ .f32) (j : (⟨2, ![100000, 128]⟩ : Shape).Idx) :
    reluFn x j = max (x j : EReal) zeroF := hostRelu_apply hsplat x j

/-- Row t·10000 + r of the node axis: row r of the t-th block of 10000 rows (ten blocks). -/
def blockRow (t : Fin 10) (r : Fin 10000) : Fin 100000 := ⟨t.val * 10000 + r.val, by have := t.isLt; have := r.isLt; omega⟩

theorem blockRow_val (t : Fin 10) (r : Fin 10000) : (blockRow t r).val = t.val * 10000 + r.val := rfl

end Cert.GraphLayer

end
-- ==== Proof.Network.lean ====
/-
  The three-layer degree-normalised graph convolution as ONE function of its nine inputs, at the exact values (no
  program here).

  From the edge lists src and dst (1600000 edges over 100000 nodes): a node's degree is the number of edges that
  name it (a scatter-add of ones), its factor 1/sqrt(max(degree, 1)); the out-degree factors ns come from src, the
  in-degree factors nd from dst, each kept as a column.  One layer sends node features h to

      dense( aggregate( h scaled row by row by ns ), nd, W, b )

  where aggregate gathers the scaled row of each edge's source (a negative index counted from the end) and adds it
  into the row of the edge's destination, and dense scales the aggregate by nd, multiplies by the weight and adds the
  bias (Proof/GraphLayer.lean, Proof/Sizes.lean).  The first two layers are rectified, the last is not.

  Both programs of the certificate compute this function; the equality of their results is stated against it.
-/
import proofs.«152195_j21105469293089_1_alg».proof.Proof.Sizes

noncomputable section

namespace Cert.GraphLayer

open Idealize.ShloMosaic Idealize.ShloMosaic.ValueIdx

/-! ## Shapes and dimension records -/

abbrev Nodes : Shape := ⟨1, ![100000]⟩
abbrev NodeCol : Shape := ⟨2, ![100000, 1]⟩
abbrev Feat : Shape := ⟨2, ![100000, 128]⟩
abbrev Edges : Shape := ⟨1, ![1600000]⟩
abbrev EdgeCol : Shape := ⟨2, ![1600000, 1]⟩
abbrev EdgeFeat : Shape := ⟨2, ![1600000, 128]⟩
abbrev Scal : Shape := ⟨0, ![]⟩
abbrev Wt : Shape := ⟨2, ![128, 128]⟩
abbrev Bias : Shape := ⟨1, ![128]⟩

theorem splatNodes : Scal.BroadcastsInDim Nodes (![] : Fin 0 → Fin 1) := by decide
theorem splatEdges : Scal.BroadcastsInDim Edges (![] : Fin 0 → Fin 1) := by decide
theorem edgesToCol : Edges.BroadcastsInDim EdgeCol (![0] : Fin 1 → Fin 2) := by decide
theorem nodesToCol : Nodes.BroadcastsInDim NodeCol (![0] : Fin 1 → Fin 2) := by decide

/-- The degree count: one update per edge, added into the node the edge names. -/
def countScatter : ScatterDims Nodes EdgeCol Edges where
  updateWindowDims := []
  insertedWindowDims := [0]
  scatterDimsToOperandDims := [0]
  indexVectorDim := 1
  wf := by decide

/-- The row gather: one whole feature row per edge. -/
def rowGather : GatherDims Feat EdgeCol EdgeFeat where
  offsetDims := [1]
  collapsedSliceDims := [0]
  operandBatchingDims := []
  startIndicesBatchingDims := []
  startIndexMap := [0]
  indexVectorDim := 1
  sliceSizes := ![1, 128]
  wf := by decide

/-- The row scatter-add: one whole feature row per edge, added into the node the edge names. -/
def rowScatter : ScatterDims Feat EdgeCol EdgeFeat where
  updateWindowDims := [1]
  insertedWindowDims := [0]
  scatterDimsToOperandDims := [0]
  indexVectorDim := 1
  wf := by decide

/-! ## The pieces -/

/-- 1/sqrt(max(degree, 1)) per node, the degree counted over the edge list idx. -/
def degNorm (idx : (⟨Edges, .i32⟩ : BufTy).Contents (Elt Ideal)) : FVec Ideal Nodes .f32 :=
  Host.rsqrt (maximumf (broadcastInDim Nodes ![] splatNodes (id (constant (F := Ideal) Scal .f32 0x3F800000#32)))
    (Host.scatterAdd countScatter (broadcastInDim Nodes ![] splatNodes (constant (F := Ideal) Scal .f32 0x00000000#32))
      (broadcastInDim EdgeCol ![0] edgesToCol idx)
      (broadcastInDim Edges ![] splatEdges (constant (F := Ideal) Scal .f32 0x3F800000#32))))

/-- A per-node vector kept as a column. -/
def nodeCol (v : FVec Ideal Nodes .f32) : FVec Ideal NodeCol .f32 := broadcastInDim NodeCol ![0] nodesToCol v

/-- An edge's source row, a negative index counted from the end. -/
def wrapIndex (src : (⟨Edges, .i32⟩ : BufTy).Contents (Elt Ideal)) : (⟨Edges, .i32⟩ : BufTy).Contents (Elt Ideal) :=
  select (cmpi .slt src (broadcastInDim Edges ![] splatEdges (constantI Scal 32 0#32)))
    (addi src (broadcastInDim Edges ![] splatEdges (constantI Scal 32 100000#32))) src

/-- Each edge's source row added into its destination row. -/
def aggregate (h : FVec Ideal Feat .f32) (src dst : (⟨Edges, .i32⟩ : BufTy).Contents (Elt Ideal)) : FVec Ideal Feat .f32 :=
  Host.scatterAdd rowScatter (broadcastInDim Feat ![] hsplat (constant (F := Ideal) Scal .f32 0x00000000#32))
    (broadcastInDim EdgeCol ![0] edgesToCol dst)
    (Host.gather rowGather h (broadcastInDim EdgeCol ![0] edgesToCol (wrapIndex src)))

/-- One layer before its rectifier. -/
def layer (h : FVec Ideal Feat .f32) (src dst : (⟨Edges, .i32⟩ : BufTy).Contents (Elt Ideal))
    (ns nd : FVec Ideal NodeCol .f32) (W : FVec Ideal Wt .f32) (b : FVec Ideal Bias .f32) : FVec Ideal Feat .f32 :=
  denseFn (aggregate (scaleFn h ns) src dst) nd W b

/-- The network. -/
def forward (x : FVec Ideal Feat .f32) (src dst : (⟨Edges, .i32⟩ : BufTy).Contents (Elt Ideal))
    (W0 : FVec Ideal Wt .f32) (b0 : FVec Ideal Bias .f32) (W1 : FVec Ideal Wt .f32) (b1 : FVec Ideal Bias .f32)
    (W2 : FVec Ideal Wt .f32) (b2 : FVec Ideal Bias .f32) : FVec Ideal Feat .f32 :=
  layer (reluFn (layer (reluFn (layer x src dst (nodeCol (degNorm src)) (nodeCol (degNorm dst)) W0 b0))
      src dst (nodeCol (degNorm src)) (nodeCol (degNorm dst)) W1 b1))
    src dst (nodeCol (degNorm src)) (nodeCol (degNorm dst)) W2 b2

end Cert.GraphLayer

end
-- ==== Proof.Scale0.lean ====
/-
  The first row-scaling region's value: with h the features it reads and n the column of out-degree factors, its result
  array ends at h[p, k] · n[p, 0] at every (p, k).

  The region visits ten blocks of 10000 rows.  At a point the body multiplies its block by its column block broadcast
  over the columns; entry (r, k) of what it stores reads row r of the two blocks only, and row r of block t is row
  t·10000 + r of the array.  The ten blocks tile the result array.
-/
import proofs.«152195_j21105469293089_1_alg».proof.Proof.Gen.KernelIdeal.Frame
import proofs.«152195_j21105469293089_1_alg».proof.Proof.Sizes
import Idealize.ShloMosaic.Lib.Pipeline.Value

set_option maxRecDepth 16384

noncomputable section

namespace Cert.KernelIdeal.Scale0

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The grid has ten points; point t as a block number. -/
def blockOf (t : Fin cfg0.N) : Fin 10 := ⟨t.val, lt_of_lt_of_eq t.isLt N_0⟩

/-- The body's stored value at entry (r, k) of a block. -/
theorem stored_apply (x0 : Vec Ideal S10000x128 .f32) (x1 : Vec Ideal S10000x1 .f32) (r : Fin 10000) (k : Fin 128) :
    k0_pay1 x0 x1 (ix2 r k) = scaledAt x0 x1 r k := by
  unfold k0_pay1
  exact blockScale_apply (R := 10000) (K := 128) _ _ x0 x1 r k

/-- The printed index maps over the grid: the row blocks move with the point, the column block index stays 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row r of the features' block at point t is row t·10000 + r of the features. -/
theorem feat_apply (c : Dev nD) (t : Fin cfg0.N) (r : Fin 10000) (k : Fin 128) :
    (iblk0 V c 0 t : Vec Ideal S10000x128 .f32) (ix2 r k)
      = (V c main_arg0 : FVec Ideal S100000x128 .f32) (ix2 (blockRow (blockOf t) r) k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * r.val = t.val * 10000 + r.val; rw [e0]; omega
  | ⟨1, _⟩ => show win0_0.index t (1 : Fin 2) * 128 + 1 * k.val = k.val; rw [e1]; omega

/-- Row r of the factor column's block at point t is row t·10000 + r of the column. -/
theorem col_apply (c : Dev nD) (t : Fin cfg0.N) (r : Fin 10000) :
    (iblk0 V c 1 t : Vec Ideal S10000x1 .f32) (ix2 r (0 : Fin 1))
      = (V c main_v9 : FVec Ideal S100000x1 .f32) (ix2 (blockRow (blockOf t) r) (0 : Fin 1)) := by
  obtain ⟨-, -, e2, e3, -⟩ := idx_facts t
  unfold iblk0
  rw [View.read_apply]
  show V c main_v9 _ = V c main_v9 _
  refine congrArg (V c main_v9) (funext fun a => Fin.ext ?_)
  match a with
  | ⟨0, _⟩ => show win0_1.index t (0 : Fin 2) * 10000 + 1 * r.val = t.val * 10000 + r.val; rw [e2]; omega
  | ⟨1, _⟩ => show win0_1.index t (1 : Fin 2) * 1 + 1 * 0 = 0; rw [e3]

/-- Entry (r, k) of the result's block at point t is entry (t·10000 + r, k) of the result array. -/
theorem out_emb (t : Fin cfg0.N) (r : Fin 10000) (k : Fin 128) :
    ((cfg0.win 2).blk t).view.emb (ix2 r k : S10000x128.Idx) = (ix2 (blockRow (blockOf t) r) k : S100000x128.Idx) := by
  obtain ⟨-, -, -, -, e4, e5⟩ := idx_facts t
  funext a; apply Fin.ext
  match a with
  | ⟨0, _⟩ => show win0_2.index t (0 : Fin 2) * 10000 + 1 * r.val = t.val * 10000 + r.val; rw [e4]; omega
  | ⟨1, _⟩ => show win0_2.index t (1 : Fin 2) * 128 + 1 * k.val = k.val; rw [e5]; omega

/-- WHAT POINT t WRITES BACK is block t of the scaled features of the arrays as the region finds them: a row of the
    result is that row of the features times that row's factor. -/
theorem flushed_eq (c : Dev nD) (t : Fin cfg0.N) :
    (dat0 V c).flushed 2 t = ((cfg0.win 2).blk t).view.read (Elt Ideal) (scaleFn (V c main_arg0) (V c main_v9)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S10000x1) hz2]
  funext j
  obtain ⟨r, k, rfl⟩ : ∃ (r : Fin 10000) (k : Fin 128), j = ix2 r k := ⟨j 0, j 1, eq_ix2 j⟩
  rw [View.read_apply]
  show k0_pay1 (iblk0 V c 0 t) (iblk0 V c 1 t) (ix2 r k)
    = scaleFn (V c main_arg0) (V c main_v9) (((cfg0.win 2).blk t).view.emb (ix2 r k))
  rw [out_emb t r k]
  refine (stored_apply (iblk0 V c 0 t) (iblk0 V c 1 t) r k).trans ?_
  refine Eq.trans ?_ (scaleFn_apply (V c main_arg0) (V c main_v9) (blockRow (blockOf t) r) k).symm
  exact scaledAt_congr (V c main_arg0) (V c main_v9) (iblk0 V c 0 t) (iblk0 V c 1 t) (blockRow (blockOf t) r) r
    (fun k => feat_apply V c t r k) (col_apply V c t r) k

/-- An index of the result array is in point t's block iff its row is among the block's rows. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v13).slice (win0_2.rect t)).set ↔ _
  rw [View.set_slice_whole, Rect.mem_set_unit]
  exact Iff.rfl

/-- THE RESULT ARRAY after the region: the ten row blocks tile it (row p lies in block p / 10000). -/
theorem final (c : Dev nD) : (dat0 V c).arrAt 2 cfg0.N = scaleFn (V c main_arg0) (V c main_v9) :=
  (dat0 V c).arrAt_eq_of_cover 2 _ (fun t _ => flushed_eq V c t) fun i => by
    have h0 : (i 0).val < 100000 := (i 0).isLt
    have h1 : (i 1).val < 128 := (i 1).isLt
    have hN : cfg0.N = 10 := N_0
    refine ⟨⟨(i 0).val / 10000, by rw [hN]; omega⟩, flush0_2 _, ?_⟩
    obtain ⟨-, -, -, -, e4, e5⟩ := idx_facts ⟨(i 0).val / 10000, by rw [hN]; omega⟩
    rw [mem_blk]
    intro a
    match a with
    | ⟨0, _⟩ =>
      show win0_2.index _ (0 : Fin 2) * 10000 ≤ (i 0).val ∧ (i 0).val < win0_2.index _ (0 : Fin 2) * 10000 + 10000
      rw [e4]; show (i 0).val / 10000 * 10000 ≤ (i 0).val ∧ (i 0).val < (i 0).val / 10000 * 10000 + 10000; omega
    | ⟨1, _⟩ =>
      show win0_2.index _ (1 : Fin 2) * 128 ≤ (i 1).val ∧ (i 1).val < win0_2.index _ (1 : Fin 2) * 128 + 128
      rw [e5]; omega

end Cert.KernelIdeal.Scale0

end
-- ==== Proof.Dense1.lean ====
/-
  The first dense region's value: with a the aggregate it reads, n the column of in-degree factors, W and b the layer's
  weight and bias, its result array ends at max((Σ_k (a[p,k] · n[p,0]) · W[k,q]) + b[q], 0) at every (p, q).

  The region visits ten blocks of 10000 rows.  At a point the body scales its block by its column block, multiplies
  by the whole weight into a zero accumulator, adds the bias along the rows and rectifies; entry (r, q) of what it
  stores is the layer's entry form on the block (Proof/GraphLayer.lean), which reads row r of the two blocks only,
  and row r of block t is row t·10000 + r of the array.  The ten blocks tile the result array.
-/
import proofs.«152195_j21105469293089_1_alg».proof.Proof.Gen.KernelIdeal.Frame
import proofs.«152195_j21105469293089_1_alg».proof.Proof.Sizes
import Idealize.ShloMosaic.Lib.Pipeline.Value

set_option maxRecDepth 16384

noncomputable section

namespace Cert.KernelIdeal.Dense1

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has ten points; point t as a block number. -/
def blockOf (t : Fin cfg1.N) : Fin 10 := ⟨t.val, lt_of_lt_of_eq t.isLt N_1⟩

/-- What the region leaves in its result array, as one function of the four arrays it reads. -/
def result (a : FVec Ideal S100000x128 .f32) (n : FVec Ideal S100000x1 .f32) (W : FVec Ideal S128x128 .f32)
    (b : FVec Ideal S128 .f32) : FVec Ideal S100000x128 .f32 := reluFn (denseFn a n W b)

/-- The body's stored value at entry (r, q) of a block. -/
theorem stored_apply (x0 : Vec Ideal S10000x128 .f32) (x2 : Vec Ideal S10000x1 .f32) (x6 : Vec Ideal S128x128 .f32)
    (x8 : Vec Ideal S128 .f32) (r : Fin 10000) (q : Fin 128) :
    k1_pay1 x0 x2 x6 x8 (ix2 r q) = max (affineAt x0 x2 x6 x8 r q) zeroF := by
  unfold k1_pay1
  exact (blockRelu_apply _ (ix2 r q)).trans (congrArg (max · zeroF)
    (blockAffine_apply (R := 10000) (K := 128) (C := 128) _ _ _ _ _ x0 x2 x6 x8 r q))

/-- The same entry of the whole-array function. -/
theorem result_apply (a : FVec Ideal S100000x128 .f32) (n : FVec Ideal S100000x1 .f32) (W : FVec Ideal S128x128 .f32)
    (b : FVec Ideal S128 .f32) (p : Fin 100000) (q : Fin 128) :
    result a n W b (ix2 p q) = max (affineAt a n W b p q) zeroF := by
  unfold result
  rw [reluFn_apply, denseFn_apply]

/-- The printed index maps over the grid: the row blocks move with the point, everything else stays at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row r of the aggregate's block at point t is row t·10000 + r of the aggregate. -/
theorem agg_apply (c : Dev nD) (t : Fin cfg1.N) (r : Fin 10000) (k : Fin 128) :
    (iblk1 V c 0 t : Vec Ideal S10000x128 .f32) (ix2 r k)
      = (V c main_v23 : FVec Ideal S100000x128 .f32) (ix2 (blockRow (blockOf t) r) k) := by
  obtain ⟨e0, e1, -⟩ := idx_facts t
  unfold iblk1
  rw [View.read_apply]
  show V c main_v23 _ = V c main_v23 _
  refine congrArg (V c main_v23) (funext fun a => Fin.ext ?_)
  match a with
  | ⟨0, _⟩ => show win1_0.index t (0 : Fin 2) * 10000 + 1 * r.val = t.val * 10000 + r.val; rw [e0]; omega
  | ⟨1, _⟩ => show win1_0.index t (1 : Fin 2) * 128 + 1 * k.val = k.val; rw [e1]; omega

/-- Row r of the factor column's block at point t is row t·10000 + r of the column. -/
theorem col_apply (c : Dev nD) (t : Fin cfg1.N) (r : Fin 10000) :
    (iblk1 V c 1 t : Vec Ideal S10000x1 .f32) (ix2 r (0 : Fin 1))
      = (V c main_v12 : FVec Ideal S100000x1 .f32) (ix2 (blockRow (blockOf t) r) (0 : Fin 1)) := by
  obtain ⟨-, -, e2, e3, -⟩ := idx_facts t
  unfold iblk1
  rw [View.read_apply]
  show V c main_v12 _ = V c main_v12 _
  refine congrArg (V c main_v12) (funext fun a => Fin.ext ?_)
  match a with
  | ⟨0, _⟩ => show win1_1.index t (0 : Fin 2) * 10000 + 1 * r.val = t.val * 10000 + r.val; rw [e2]; omega
  | ⟨1, _⟩ => show win1_1.index t (1 : Fin 2) * 1 + 1 * 0 = 0; rw [e3]

/-- The weight's one block is the weight. -/
theorem weight_eq (c : Dev nD) (t : Fin cfg1.N) :
    (iblk1 V c 2 t : Vec Ideal S128x128 .f32) = (V c main_arg3 : FVec Ideal S128x128 .f32) := by
  obtain ⟨-, -, -, -, e4, e5, -⟩ := idx_facts t
  funext j
  unfold iblk1
  rw [View.read_apply]
  show V c main_arg3 _ = V c main_arg3 _
  refine congrArg (V c main_arg3) (funext fun a => Fin.ext ?_)
  match a with
  | ⟨0, _⟩ => show win1_2.index t (0 : Fin 2) * 128 + 1 * (j 0).val = (j 0).val; rw [e4]; omega
  | ⟨1, _⟩ => show win1_2.index t (1 : Fin 2) * 128 + 1 * (j 1).val = (j 1).val; rw [e5]; omega

/-- The bias's one block is the bias. -/
theorem bias_eq (c : Dev nD) (t : Fin cfg1.N) :
    (iblk1 V c 3 t : Vec Ideal S128 .f32) = (V c main_arg4 : FVec Ideal S128 .f32) := by
  obtain ⟨-, -, -, -, -, -, e6, -⟩ := idx_facts t
  funext j
  unfold iblk1
  rw [View.read_apply]
  show V c main_arg4 _ = V c main_arg4 _
  refine congrArg (V c main_arg4) (funext fun a => Fin.ext ?_)
  match a with
  | ⟨0, _⟩ => show win1_3.index t (0 : Fin 1) * 128 + 1 * (j 0).val = (j 0).val; rw [e6]; omega

/-- Entry (r, q) of the result's block at point t is entry (t·10000 + r, q) of the result array. -/
theorem out_emb (t : Fin cfg1.N) (r : Fin 10000) (q : Fin 128) :
    ((cfg1.win 4).blk t).view.emb (ix2 r q : S10000x128.Idx) = (ix2 (blockRow (blockOf t) r) q : S100000x128.Idx) := by
  obtain ⟨-, -, -, -, -, -, -, e7, e8⟩ := idx_facts t
  funext a; apply Fin.ext
  match a with
  | ⟨0, _⟩ => show win1_4.index t (0 : Fin 2) * 10000 + 1 * r.val = t.val * 10000 + r.val; rw [e7]; omega
  | ⟨1, _⟩ => show win1_4.index t (1 : Fin 2) * 128 + 1 * q.val = q.val; rw [e8]; omega

/-- WHAT POINT t WRITES BACK is block t of the result function of the arrays as the region finds them: every entry
    of a row of the result depends on that row of the aggregate and of the column only. -/
theorem flushed_eq (c : Dev nD) (t : Fin cfg1.N) :
    (dat1 V c).flushed 4 t = ((cfg1.win 4).blk t).view.read (Elt Ideal)
      (result (V c main_v23) (V c main_v12) (V c main_arg3) (V c main_arg4)) := by
  show (cfg1.win 4).cut (grid1.coords t) ((dat1 V c).after 4 t) = _
  rw [after1_4]
  unfold out1_4
  rw [View.canon_unit_zero hz2]
  simp only [View.ld_unit_zero (S := S10000x128) hz2, View.ld_unit_zero (S := S10000x1) hz2,
    View.ld_unit_zero (S := S128x128) hz2, View.ld_unit_zero (S := S128) hz1]
  funext j
  obtain ⟨r, q, rfl⟩ : ∃ (r : Fin 10000) (q : Fin 128), j = ix2 r q := ⟨j 0, j 1, eq_ix2 j⟩
  rw [View.read_apply]
  show k1_pay1 (iblk1 V c 0 t) (iblk1 V c 1 t) (iblk1 V c 2 t) (iblk1 V c 3 t) (ix2 r q)
    = result (V c main_v23) (V c main_v12) (V c main_arg3) (V c main_arg4) (((cfg1.win 4).blk t).view.emb (ix2 r q))
  rw [out_emb t r q]
  refine (stored_apply (iblk1 V c 0 t) (iblk1 V c 1 t) (iblk1 V c 2 t) (iblk1 V c 3 t) r q).trans ?_
  refine Eq.trans ?_ (result_apply (V c main_v23) (V c main_v12) (V c main_arg3) (V c main_arg4) (blockRow (blockOf t) r) q).symm
  exact congrArg (max · zeroF) (affineAt_congr (V c main_v23) (V c main_v12) (iblk1 V c 0 t) (iblk1 V c 1 t) (V c main_arg3) (iblk1 V c 2 t)
    (V c main_arg4) (iblk1 V c 3 t) (blockRow (blockOf t) r) r (fun k => agg_apply V c t r k) (col_apply V c t r)
    (weight_eq V c t) (bias_eq V c t) q)

/-- An index of the result array is in point t's block iff its row is among the block's rows. -/
theorem mem_blk (t : Fin cfg1.N) (i : S100000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v24).slice (win1_4.rect t)).set ↔ _
  rw [View.set_slice_whole, Rect.mem_set_unit]
  exact Iff.rfl

/-- THE RESULT ARRAY after the region: the ten row blocks tile it (row p lies in block p / 10000). -/
theorem final (c : Dev nD) :
    (dat1 V c).arrAt 4 cfg1.N = result (V c main_v23) (V c main_v12) (V c main_arg3) (V c main_arg4) :=
  (dat1 V c).arrAt_eq_of_cover 4 _ (fun t _ => flushed_eq V c t) fun i => by
    have h0 : (i 0).val < 100000 := (i 0).isLt
    have h1 : (i 1).val < 128 := (i 1).isLt
    have hN : cfg1.N = 10 := N_1
    refine ⟨⟨(i 0).val / 10000, by rw [hN]; omega⟩, flush1_4 _, ?_⟩
    obtain ⟨-, -, -, -, -, -, -, e7, e8⟩ := idx_facts ⟨(i 0).val / 10000, by rw [hN]; omega⟩
    rw [mem_blk]
    intro a
    match a with
    | ⟨0, _⟩ =>
      show win1_4.index _ (0 : Fin 2) * 10000 ≤ (i 0).val ∧ (i 0).val < win1_4.index _ (0 : Fin 2) * 10000 + 10000
      rw [e7]; show (i 0).val / 10000 * 10000 ≤ (i 0).val ∧ (i 0).val < (i 0).val / 10000 * 10000 + 10000; omega
    | ⟨1, _⟩ =>
      show win1_4.index _ (1 : Fin 2) * 128 ≤ (i 1).val ∧ (i 1).val < win1_4.index _ (1 : Fin 2) * 128 + 128
      rw [e8]; omega

end Cert.KernelIdeal.Dense1

end
-- ==== Proof.Scale2.lean ====
/-
  The second row-scaling region's value: with h the features it reads and n the column of out-degree factors, its result
  array ends at h[p, k] · n[p, 0] at every (p, k).

  The region visits ten blocks of 10000 rows.  At a point the body recasts its block to its own shape and multiplies its block by its column block broadcast
  over the columns; entry (r, k) of what it stores reads row r of the two blocks only, and row r of block t is row
  t·10000 + r of the array.  The ten blocks tile the result array.
-/
import proofs.«152195_j21105469293089_1_alg».proof.Proof.Gen.KernelIdeal.Frame
import proofs.«152195_j21105469293089_1_alg».proof.Proof.Sizes
import Idealize.ShloMosaic.Lib.Pipeline.Value

set_option maxRecDepth 16384

noncomputable section

namespace Cert.KernelIdeal.Scale2

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The grid has ten points; point t as a block number. -/
def blockOf (t : Fin cfg2.N) : Fin 10 := ⟨t.val, lt_of_lt_of_eq t.isLt N_2⟩

/-- The body's stored value at entry (r, k) of a block. -/
theorem stored_apply (x0 : Vec Ideal S10000x128 .f32) (x1 : Vec Ideal S10000x1 .f32) (r : Fin 10000) (k : Fin 128) :
    k2_pay1 x0 x1 (ix2 r k) = scaledAt x0 x1 r k := by
  unfold k2_pay1
  exact blockScale_apply' (R := 10000) (K := 128) _ _ _ x0 x1 r k

/-- The printed index maps over the grid: the row blocks move with the point, the column block index stays 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row r of the features' block at point t is row t·10000 + r of the features. -/
theorem feat_apply (c : Dev nD) (t : Fin cfg2.N) (r : Fin 10000) (k : Fin 128) :
    (iblk2 V c 0 t : Vec Ideal S10000x128 .f32) (ix2 r k)
      = (V c main_v24 : FVec Ideal S100000x128 .f32) (ix2 (blockRow (blockOf t) r) k) := by
  obtain ⟨e0, e1, -⟩ := idx_facts t
  unfold iblk2
  rw [View.read_apply]
  show V c main_v24 _ = V c main_v24 _
  refine congrArg (V c main_v24) (funext fun a => Fin.ext ?_)
  match a with
  | ⟨0, _⟩ => show win2_0.index t (0 : Fin 2) * 10000 + 1 * r.val = t.val * 10000 + r.val; rw [e0]; omega
  | ⟨1, _⟩ => show win2_0.index t (1 : Fin 2) * 128 + 1 * k.val = k.val; rw [e1]; omega

/-- Row r of the factor column's block at point t is row t·10000 + r of the column. -/
theorem col_apply (c : Dev nD) (t : Fin cfg2.N) (r : Fin 10000) :
    (iblk2 V c 1 t : Vec Ideal S10000x1 .f32) (ix2 r (0 : Fin 1))
      = (V c main_v9 : FVec Ideal S100000x1 .f32) (ix2 (blockRow (blockOf t) r) (0 : Fin 1)) := by
  obtain ⟨-, -, e2, e3, -⟩ := idx_facts t
  unfold iblk2
  rw [View.read_apply]
  show V c main_v9 _ = V c main_v9 _
  refine congrArg (V c main_v9) (funext fun a => Fin.ext ?_)
  match a with
  | ⟨0, _⟩ => show win2_1.index t (0 : Fin 2) * 10000 + 1 * r.val = t.val * 10000 + r.val; rw [e2]; omega
  | ⟨1, _⟩ => show win2_1.index t (1 : Fin 2) * 1 + 1 * 0 = 0; rw [e3]

/-- Entry (r, k) of the result's block at point t is entry (t·10000 + r, k) of the result array. -/
theorem out_emb (t : Fin cfg2.N) (r : Fin 10000) (k : Fin 128) :
    ((cfg2.win 2).blk t).view.emb (ix2 r k : S10000x128.Idx) = (ix2 (blockRow (blockOf t) r) k : S100000x128.Idx) := by
  obtain ⟨-, -, -, -, e4, e5⟩ := idx_facts t
  funext a; apply Fin.ext
  match a with
  | ⟨0, _⟩ => show win2_2.index t (0 : Fin 2) * 10000 + 1 * r.val = t.val * 10000 + r.val; rw [e4]; omega
  | ⟨1, _⟩ => show win2_2.index t (1 : Fin 2) * 128 + 1 * k.val = k.val; rw [e5]; omega

/-- WHAT POINT t WRITES BACK is block t of the scaled features of the arrays as the region finds them: a row of the
    result is that row of the features times that row's factor. -/
theorem flushed_eq (c : Dev nD) (t : Fin cfg2.N) :
    (dat2 V c).flushed 2 t = ((cfg2.win 2).blk t).view.read (Elt Ideal) (scaleFn (V c main_v24) (V c main_v9)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S10000x1) hz2]
  funext j
  obtain ⟨r, k, rfl⟩ : ∃ (r : Fin 10000) (k : Fin 128), j = ix2 r k := ⟨j 0, j 1, eq_ix2 j⟩
  rw [View.read_apply]
  show k2_pay1 (iblk2 V c 0 t) (iblk2 V c 1 t) (ix2 r k)
    = scaleFn (V c main_v24) (V c main_v9) (((cfg2.win 2).blk t).view.emb (ix2 r k))
  rw [out_emb t r k]
  refine (stored_apply (iblk2 V c 0 t) (iblk2 V c 1 t) r k).trans ?_
  refine Eq.trans ?_ (scaleFn_apply (V c main_v24) (V c main_v9) (blockRow (blockOf t) r) k).symm
  exact scaledAt_congr (V c main_v24) (V c main_v9) (iblk2 V c 0 t) (iblk2 V c 1 t) (blockRow (blockOf t) r) r
    (fun k => feat_apply V c t r k) (col_apply V c t r) k

/-- An index of the result array is in point t's block iff its row is among the block's rows. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v25).slice (win2_2.rect t)).set ↔ _
  rw [View.set_slice_whole, Rect.mem_set_unit]
  exact Iff.rfl

/-- THE RESULT ARRAY after the region: the ten row blocks tile it (row p lies in block p / 10000). -/
theorem final (c : Dev nD) : (dat2 V c).arrAt 2 cfg2.N = scaleFn (V c main_v24) (V c main_v9) :=
  (dat2 V c).arrAt_eq_of_cover 2 _ (fun t _ => flushed_eq V c t) fun i => by
    have h0 : (i 0).val < 100000 := (i 0).isLt
    have h1 : (i 1).val < 128 := (i 1).isLt
    have hN : cfg2.N = 10 := N_2
    refine ⟨⟨(i 0).val / 10000, by rw [hN]; omega⟩, flush2_2 _, ?_⟩
    obtain ⟨-, -, -, -, e4, e5⟩ := idx_facts ⟨(i 0).val / 10000, by rw [hN]; omega⟩
    rw [mem_blk]
    intro a
    match a with
    | ⟨0, _⟩ =>
      show win2_2.index _ (0 : Fin 2) * 10000 ≤ (i 0).val ∧ (i 0).val < win2_2.index _ (0 : Fin 2) * 10000 + 10000
      rw [e4]; show (i 0).val / 10000 * 10000 ≤ (i 0).val ∧ (i 0).val < (i 0).val / 10000 * 10000 + 10000; omega
    | ⟨1, _⟩ =>
      show win2_2.index _ (1 : Fin 2) * 128 ≤ (i 1).val ∧ (i 1).val < win2_2.index _ (1 : Fin 2) * 128 + 128
      rw [e5]; omega

end Cert.KernelIdeal.Scale2

end
-- ==== Proof.Dense3.lean ====
/-
  The second dense region's value: with a the aggregate it reads, n the column of in-degree factors, W and b the layer's
  weight and bias, its result array ends at max((Σ_k (a[p,k] · n[p,0]) · W[k,q]) + b[q], 0) at every (p, q).

  The region visits ten blocks of 10000 rows.  At a point the body scales its block by its column block, multiplies
  by the whole weight into a zero accumulator, adds the bias along the rows and rectifies; entry (r, q) of what it
  stores is the layer's entry form on the block (Proof/GraphLayer.lean), which reads row r of the two blocks only,
  and row r of block t is row t·10000 + r of the array.  The ten blocks tile the result array.
-/
import proofs.«152195_j21105469293089_1_alg».proof.Proof.Gen.KernelIdeal.Frame
import proofs.«152195_j21105469293089_1_alg».proof.Proof.Sizes
import Idealize.ShloMosaic.Lib.Pipeline.Value

set_option maxRecDepth 16384

noncomputable section

namespace Cert.KernelIdeal.Dense3

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has ten points; point t as a block number. -/
def blockOf (t : Fin cfg3.N) : Fin 10 := ⟨t.val, lt_of_lt_of_eq t.isLt N_3⟩

/-- What the region leaves in its result array, as one function of the four arrays it reads. -/
def result (a : FVec Ideal S100000x128 .f32) (n : FVec Ideal S100000x1 .f32) (W : FVec Ideal S128x128 .f32)
    (b : FVec Ideal S128 .f32) : FVec Ideal S100000x128 .f32 := reluFn (denseFn a n W b)

/-- The body's stored value at entry (r, q) of a block. -/
theorem stored_apply (x0 : Vec Ideal S10000x128 .f32) (x2 : Vec Ideal S10000x1 .f32) (x6 : Vec Ideal S128x128 .f32)
    (x8 : Vec Ideal S128 .f32) (r : Fin 10000) (q : Fin 128) :
    k3_pay1 x0 x2 x6 x8 (ix2 r q) = max (affineAt x0 x2 x6 x8 r q) zeroF := by
  unfold k3_pay1
  exact (blockRelu_apply _ (ix2 r q)).trans (congrArg (max · zeroF)
    (blockAffine_apply (R := 10000) (K := 128) (C := 128) _ _ _ _ _ x0 x2 x6 x8 r q))

/-- The same entry of the whole-array function. -/
theorem result_apply (a : FVec Ideal S100000x128 .f32) (n : FVec Ideal S100000x1 .f32) (W : FVec Ideal S128x128 .f32)
    (b : FVec Ideal S128 .f32) (p : Fin 100000) (q : Fin 128) :
    result a n W b (ix2 p q) = max (affineAt a n W b p q) zeroF := by
  unfold result
  rw [reluFn_apply, denseFn_apply]

/-- The printed index maps over the grid: the row blocks move with the point, everything else stays at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Row r of the aggregate's block at point t is row t·10000 + r of the aggregate. -/
theorem agg_apply (c : Dev nD) (t : Fin cfg3.N) (r : Fin 10000) (k : Fin 128) :
    (iblk3 V c 0 t : Vec Ideal S10000x128 .f32) (ix2 r k)
      = (V c main_v35 : FVec Ideal S100000x128 .f32) (ix2 (blockRow (blockOf t) r) k) := by
  obtain ⟨e0, e1, -⟩ := idx_facts t
  unfold iblk3
  rw [View.read_apply]
  show V c main_v35 _ = V c main_v35 _
  refine congrArg (V c main_v35) (funext fun a => Fin.ext ?_)
  match a with
  | ⟨0, _⟩ => show win3_0.index t (0 : Fin 2) * 10000 + 1 * r.val = t.val * 10000 + r.val; rw [e0]; omega
  | ⟨1, _⟩ => show win3_0.index t (1 : Fin 2) * 128 + 1 * k.val = k.val; rw [e1]; omega

/-- Row r of the factor column's block at point t is row t·10000 + r of the column. -/
theorem col_apply (c : Dev nD) (t : Fin cfg3.N) (r : Fin 10000) :
    (iblk3 V c 1 t : Vec Ideal S10000x1 .f32) (ix2 r (0 : Fin 1))
      = (V c main_v12 : FVec Ideal S100000x1 .f32) (ix2 (blockRow (blockOf t) r) (0 : Fin 1)) := by
  obtain ⟨-, -, e2, e3, -⟩ := idx_facts t
  unfold iblk3
  rw [View.read_apply]
  show V c main_v12 _ = V c main_v12 _
  refine congrArg (V c main_v12) (funext fun a => Fin.ext ?_)
  match a with
  | ⟨0, _⟩ => show win3_1.index t (0 : Fin 2) * 10000 + 1 * r.val = t.val * 10000 + r.val; rw [e2]; omega
  | ⟨1, _⟩ => show win3_1.index t (1 : Fin 2) * 1 + 1 * 0 = 0; rw [e3]

/-- The weight's one block is the weight. -/
theorem weight_eq (c : Dev nD) (t : Fin cfg3.N) :
    (iblk3 V c 2 t : Vec Ideal S128x128 .f32) = (V c main_arg5 : FVec Ideal S128x128 .f32) := by
  obtain ⟨-, -, -, -, e4, e5, -⟩ := idx_facts t
  funext j
  unfold iblk3
  rw [View.read_apply]
  show V c main_arg5 _ = V c main_arg5 _
  refine congrArg (V c main_arg5) (funext fun a => Fin.ext ?_)
  match a with
  | ⟨0, _⟩ => show win3_2.index t (0 : Fin 2) * 128 + 1 * (j 0).val = (j 0).val; rw [e4]; omega
  | ⟨1, _⟩ => show win3_2.index t (1 : Fin 2) * 128 + 1 * (j 1).val = (j 1).val; rw [e5]; omega

/-- The bias's one block is the bias. -/
theorem bias_eq (c : Dev nD) (t : Fin cfg3.N) :
    (iblk3 V c 3 t : Vec Ideal S128 .f32) = (V c main_arg6 : FVec Ideal S128 .f32) := by
  obtain ⟨-, -, -, -, -, -, e6, -⟩ := idx_facts t
  funext j
  unfold iblk3
  rw [View.read_apply]
  show V c main_arg6 _ = V c main_arg6 _
  refine congrArg (V c main_arg6) (funext fun a => Fin.ext ?_)
  match a with
  | ⟨0, _⟩ => show win3_3.index t (0 : Fin 1) * 128 + 1 * (j 0).val = (j 0).val; rw [e6]; omega

/-- Entry (r, q) of the result's block at point t is entry (t·10000 + r, q) of the result array. -/
theorem out_emb (t : Fin cfg3.N) (r : Fin 10000) (q : Fin 128) :
    ((cfg3.win 4).blk t).view.emb (ix2 r q : S10000x128.Idx) = (ix2 (blockRow (blockOf t) r) q : S100000x128.Idx) := by
  obtain ⟨-, -, -, -, -, -, -, e7, e8⟩ := idx_facts t
  funext a; apply Fin.ext
  match a with
  | ⟨0, _⟩ => show win3_4.index t (0 : Fin 2) * 10000 + 1 * r.val = t.val * 10000 + r.val; rw [e7]; omega
  | ⟨1, _⟩ => show win3_4.index t (1 : Fin 2) * 128 + 1 * q.val = q.val; rw [e8]; omega

/-- WHAT POINT t WRITES BACK is block t of the result function of the arrays as the region finds them: every entry
    of a row of the result depends on that row of the aggregate and of the column only. -/
theorem flushed_eq (c : Dev nD) (t : Fin cfg3.N) :
    (dat3 V c).flushed 4 t = ((cfg3.win 4).blk t).view.read (Elt Ideal)
      (result (V c main_v35) (V c main_v12) (V c main_arg5) (V c main_arg6)) := by
  show (cfg3.win 4).cut (grid3.coords t) ((dat3 V c).after 4 t) = _
  rw [after3_4]
  unfold out3_4
  rw [View.canon_unit_zero hz2]
  simp only [View.ld_unit_zero (S := S10000x128) hz2, View.ld_unit_zero (S := S10000x1) hz2,
    View.ld_unit_zero (S := S128x128) hz2, View.ld_unit_zero (S := S128) hz1]
  funext j
  obtain ⟨r, q, rfl⟩ : ∃ (r : Fin 10000) (q : Fin 128), j = ix2 r q := ⟨j 0, j 1, eq_ix2 j⟩
  rw [View.read_apply]
  show k3_pay1 (iblk3 V c 0 t) (iblk3 V c 1 t) (iblk3 V c 2 t) (iblk3 V c 3 t) (ix2 r q)
    = result (V c main_v35) (V c main_v12) (V c main_arg5) (V c main_arg6) (((cfg3.win 4).blk t).view.emb (ix2 r q))
  rw [out_emb t r q]
  refine (stored_apply (iblk3 V c 0 t) (iblk3 V c 1 t) (iblk3 V c 2 t) (iblk3 V c 3 t) r q).trans ?_
  refine Eq.trans ?_ (result_apply (V c main_v35) (V c main_v12) (V c main_arg5) (V c main_arg6) (blockRow (blockOf t) r) q).symm
  exact congrArg (max · zeroF) (affineAt_congr (V c main_v35) (V c main_v12) (iblk3 V c 0 t) (iblk3 V c 1 t) (V c main_arg5) (iblk3 V c 2 t)
    (V c main_arg6) (iblk3 V c 3 t) (blockRow (blockOf t) r) r (fun k => agg_apply V c t r k) (col_apply V c t r)
    (weight_eq V c t) (bias_eq V c t) q)

/-- An index of the result array is in point t's block iff its row is among the block's rows. -/
theorem mem_blk (t : Fin cfg3.N) (i : S100000x128.Idx) :
    i ∈ ((cfg3.win 4).blk t).view.set ↔ ∀ a : Fin 2, win3_4.index t a * S10000x128.size a ≤ (i a).val
      ∧ (i a).val < win3_4.index t a * S10000x128.size a + S10000x128.size a := by
  show i ∈ ((View.whole main_v36).slice (win3_4.rect t)).set ↔ _
  rw [View.set_slice_whole, Rect.mem_set_unit]
  exact Iff.rfl

/-- THE RESULT ARRAY after the region: the ten row blocks tile it (row p lies in block p / 10000). -/
theorem final (c : Dev nD) :
    (dat3 V c).arrAt 4 cfg3.N = result (V c main_v35) (V c main_v12) (V c main_arg5) (V c main_arg6) :=
  (dat3 V c).arrAt_eq_of_cover 4 _ (fun t _ => flushed_eq V c t) fun i => by
    have h0 : (i 0).val < 100000 := (i 0).isLt
    have h1 : (i 1).val < 128 := (i 1).isLt
    have hN : cfg3.N = 10 := N_3
    refine ⟨⟨(i 0).val / 10000, by rw [hN]; omega⟩, flush3_4 _, ?_⟩
    obtain ⟨-, -, -, -, -, -, -, e7, e8⟩ := idx_facts ⟨(i 0).val / 10000, by rw [hN]; omega⟩
    rw [mem_blk]
    intro a
    match a with
    | ⟨0, _⟩ =>
      show win3_4.index _ (0 : Fin 2) * 10000 ≤ (i 0).val ∧ (i 0).val < win3_4.index _ (0 : Fin 2) * 10000 + 10000
      rw [e7]; show (i 0).val / 10000 * 10000 ≤ (i 0).val ∧ (i 0).val < (i 0).val / 10000 * 10000 + 10000; omega
    | ⟨1, _⟩ =>
      show win3_4.index _ (1 : Fin 2) * 128 ≤ (i 1).val ∧ (i 1).val < win3_4.index _ (1 : Fin 2) * 128 + 128
      rw [e8]; omega

end Cert.KernelIdeal.Dense3

end
-- ==== Proof.Scale4.lean ====
/-
  The third row-scaling region's value: with h the features it reads and n the column of out-degree factors, its result
  array ends at h[p, k] · n[p, 0] at every (p, k).

  The region visits ten blocks of 10000 rows.  At a point the body recasts its block to its own shape and multiplies its block by its column block broadcast
  over the columns; entry (r, k) of what it stores reads row r of the two blocks only, and row r of block t is row
  t·10000 + r of the array.  The ten blocks tile the result array.
-/
import proofs.«152195_j21105469293089_1_alg».proof.Proof.Gen.KernelIdeal.Frame
import proofs.«152195_j21105469293089_1_alg».proof.Proof.Sizes
import Idealize.ShloMosaic.Lib.Pipeline.Value

set_option maxRecDepth 16384

noncomputable section

namespace Cert.KernelIdeal.Scale4

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The grid has ten points; point t as a block number. -/
def blockOf (t : Fin cfg4.N) : Fin 10 := ⟨t.val, lt_of_lt_of_eq t.isLt N_4⟩

/-- The body's stored value at entry (r, k) of a block. -/
theorem stored_apply (x0 : Vec Ideal S10000x128 .f32) (x1 : Vec Ideal S10000x1 .f32) (r : Fin 10000) (k : Fin 128) :
    k4_pay1 x0 x1 (ix2 r k) = scaledAt x0 x1 r k := by
  unfold k4_pay1
  exact blockScale_apply' (R := 10000) (K := 128) _ _ _ x0 x1 r k

/-- The printed index maps over the grid: the row blocks move with the point, the column block index stays 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Row r of the features' block at point t is row t·10000 + r of the features. -/
theorem feat_apply (c : Dev nD) (t : Fin cfg4.N) (r : Fin 10000) (k : Fin 128) :
    (iblk4 V c 0 t : Vec Ideal S10000x128 .f32) (ix2 r k)
      = (V c main_v36 : FVec Ideal S100000x128 .f32) (ix2 (blockRow (blockOf t) r) k) := by
  obtain ⟨e0, e1, -⟩ := idx_facts t
  unfold iblk4
  rw [View.read_apply]
  show V c main_v36 _ = V c main_v36 _
  refine congrArg (V c main_v36) (funext fun a => Fin.ext ?_)
  match a with
  | ⟨0, _⟩ => show win4_0.index t (0 : Fin 2) * 10000 + 1 * r.val = t.val * 10000 + r.val; rw [e0]; omega
  | ⟨1, _⟩ => show win4_0.index t (1 : Fin 2) * 128 + 1 * k.val = k.val; rw [e1]; omega

/-- Row r of the factor column's block at point t is row t·10000 + r of the column. -/
theorem col_apply (c : Dev nD) (t : Fin cfg4.N) (r : Fin 10000) :
    (iblk4 V c 1 t : Vec Ideal S10000x1 .f32) (ix2 r (0 : Fin 1))
      = (V c main_v9 : FVec Ideal S100000x1 .f32) (ix2 (blockRow (blockOf t) r) (0 : Fin 1)) := by
  obtain ⟨-, -, e2, e3, -⟩ := idx_facts t
  unfold iblk4
  rw [View.read_apply]
  show V c main_v9 _ = V c main_v9 _
  refine congrArg (V c main_v9) (funext fun a => Fin.ext ?_)
  match a with
  | ⟨0, _⟩ => show win4_1.index t (0 : Fin 2) * 10000 + 1 * r.val = t.val * 10000 + r.val; rw [e2]; omega
  | ⟨1, _⟩ => show win4_1.index t (1 : Fin 2) * 1 + 1 * 0 = 0; rw [e3]

/-- Entry (r, k) of the result's block at point t is entry (t·10000 + r, k) of the result array. -/
theorem out_emb (t : Fin cfg4.N) (r : Fin 10000) (k : Fin 128) :
    ((cfg4.win 2).blk t).view.emb (ix2 r k : S10000x128.Idx) = (ix2 (blockRow (blockOf t) r) k : S100000x128.Idx) := by
  obtain ⟨-, -, -, -, e4, e5⟩ := idx_facts t
  funext a; apply Fin.ext
  match a with
  | ⟨0, _⟩ => show win4_2.index t (0 : Fin 2) * 10000 + 1 * r.val = t.val * 10000 + r.val; rw [e4]; omega
  | ⟨1, _⟩ => show win4_2.index t (1 : Fin 2) * 128 + 1 * k.val = k.val; rw [e5]; omega

/-- WHAT POINT t WRITES BACK is block t of the scaled features of the arrays as the region finds them: a row of the
    result is that row of the features times that row's factor. -/
theorem flushed_eq (c : Dev nD) (t : Fin cfg4.N) :
    (dat4 V c).flushed 2 t = ((cfg4.win 2).blk t).view.read (Elt Ideal) (scaleFn (V c main_v36) (V c main_v9)) := by
  show (cfg4.win 2).cut (grid4.coords t) ((dat4 V c).after 2 t) = _
  rw [after4_2]
  unfold out4_2
  rw [View.canon_unit_zero hz2]
  simp only [View.ld_unit_zero (S := S10000x128) hz2, View.ld_unit_zero (S := S10000x1) hz2]
  funext j
  obtain ⟨r, k, rfl⟩ : ∃ (r : Fin 10000) (k : Fin 128), j = ix2 r k := ⟨j 0, j 1, eq_ix2 j⟩
  rw [View.read_apply]
  show k4_pay1 (iblk4 V c 0 t) (iblk4 V c 1 t) (ix2 r k)
    = scaleFn (V c main_v36) (V c main_v9) (((cfg4.win 2).blk t).view.emb (ix2 r k))
  rw [out_emb t r k]
  refine (stored_apply (iblk4 V c 0 t) (iblk4 V c 1 t) r k).trans ?_
  refine Eq.trans ?_ (scaleFn_apply (V c main_v36) (V c main_v9) (blockRow (blockOf t) r) k).symm
  exact scaledAt_congr (V c main_v36) (V c main_v9) (iblk4 V c 0 t) (iblk4 V c 1 t) (blockRow (blockOf t) r) r
    (fun k => feat_apply V c t r k) (col_apply V c t r) k

/-- An index of the result array is in point t's block iff its row is among the block's rows. -/
theorem mem_blk (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v37).slice (win4_2.rect t)).set ↔ _
  rw [View.set_slice_whole, Rect.mem_set_unit]
  exact Iff.rfl

/-- THE RESULT ARRAY after the region: the ten row blocks tile it (row p lies in block p / 10000). -/
theorem final (c : Dev nD) : (dat4 V c).arrAt 2 cfg4.N = scaleFn (V c main_v36) (V c main_v9) :=
  (dat4 V c).arrAt_eq_of_cover 2 _ (fun t _ => flushed_eq V c t) fun i => by
    have h0 : (i 0).val < 100000 := (i 0).isLt
    have h1 : (i 1).val < 128 := (i 1).isLt
    have hN : cfg4.N = 10 := N_4
    refine ⟨⟨(i 0).val / 10000, by rw [hN]; omega⟩, flush4_2 _, ?_⟩
    obtain ⟨-, -, -, -, e4, e5⟩ := idx_facts ⟨(i 0).val / 10000, by rw [hN]; omega⟩
    rw [mem_blk]
    intro a
    match a with
    | ⟨0, _⟩ =>
      show win4_2.index _ (0 : Fin 2) * 10000 ≤ (i 0).val ∧ (i 0).val < win4_2.index _ (0 : Fin 2) * 10000 + 10000
      rw [e4]; show (i 0).val / 10000 * 10000 ≤ (i 0).val ∧ (i 0).val < (i 0).val / 10000 * 10000 + 10000; omega
    | ⟨1, _⟩ =>
      show win4_2.index _ (1 : Fin 2) * 128 ≤ (i 1).val ∧ (i 1).val < win4_2.index _ (1 : Fin 2) * 128 + 128
      rw [e5]; omega

end Cert.KernelIdeal.Scale4

end
-- ==== Proof.Dense5.lean ====
/-
  The last dense region's value: with a the aggregate it reads, n the column of in-degree factors, W and b the layer's
  weight and bias, its result array ends at (Σ_k (a[p,k] · n[p,0]) · W[k,q]) + b[q] at every (p, q): the output
  layer has no rectifier.

  The region visits ten blocks of 10000 rows.  At a point the body scales its block by its column block, multiplies
  by the whole weight into a zero accumulator and adds the bias along the rows; entry (r, q) of what it stores is
  the layer's entry form on the block (Proof/GraphLayer.lean), which reads row r of the two blocks only, and row r
  of block t is row t·10000 + r of the array.  The ten blocks tile the result array.
-/
import proofs.«152195_j21105469293089_1_alg».proof.Proof.Gen.KernelIdeal.Frame
import proofs.«152195_j21105469293089_1_alg».proof.Proof.Sizes
import Idealize.ShloMosaic.Lib.Pipeline.Value

set_option maxRecDepth 16384

noncomputable section

namespace Cert.KernelIdeal.Dense5

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has ten points; point t as a block number. -/
def blockOf (t : Fin cfg5.N) : Fin 10 := ⟨t.val, lt_of_lt_of_eq t.isLt N_5⟩

/-- What the region leaves in its result array, as one function of the four arrays it reads. -/
def result (a : FVec Ideal S100000x128 .f32) (n : FVec Ideal S100000x1 .f32) (W : FVec Ideal S128x128 .f32)
    (b : FVec Ideal S128 .f32) : FVec Ideal S100000x128 .f32 := denseFn a n W b

/-- The body's stored value at entry (r, q) of a block. -/
theorem stored_apply (x0 : Vec Ideal S10000x128 .f32) (x2 : Vec Ideal S10000x1 .f32) (x6 : Vec Ideal S128x128 .f32)
    (x8 : Vec Ideal S128 .f32) (r : Fin 10000) (q : Fin 128) :
    k5_pay1 x0 x2 x6 x8 (ix2 r q) = affineAt x0 x2 x6 x8 r q := by
  unfold k5_pay1
  exact blockAffine_apply (R := 10000) (K := 128) (C := 128) _ _ _ _ _ x0 x2 x6 x8 r q

/-- The same entry of the whole-array function. -/
theorem result_apply (a : FVec Ideal S100000x128 .f32) (n : FVec Ideal S100000x1 .f32) (W : FVec Ideal S128x128 .f32)
    (b : FVec Ideal S128 .f32) (p : Fin 100000) (q : Fin 128) :
    result a n W b (ix2 p q) = affineAt a n W b p q := by
  unfold result
  rw [denseFn_apply]

/-- The printed index maps over the grid: the row blocks move with the point, everything else stays at block 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- Row r of the aggregate's block at point t is row t·10000 + r of the aggregate. -/
theorem agg_apply (c : Dev nD) (t : Fin cfg5.N) (r : Fin 10000) (k : Fin 128) :
    (iblk5 V c 0 t : Vec Ideal S10000x128 .f32) (ix2 r k)
      = (V c main_v47 : FVec Ideal S100000x128 .f32) (ix2 (blockRow (blockOf t) r) k) := by
  obtain ⟨e0, e1, -⟩ := idx_facts t
  unfold iblk5
  rw [View.read_apply]
  show V c main_v47 _ = V c main_v47 _
  refine congrArg (V c main_v47) (funext fun a => Fin.ext ?_)
  match a with
  | ⟨0, _⟩ => show win5_0.index t (0 : Fin 2) * 10000 + 1 * r.val = t.val * 10000 + r.val; rw [e0]; omega
  | ⟨1, _⟩ => show win5_0.index t (1 : Fin 2) * 128 + 1 * k.val = k.val; rw [e1]; omega

/-- Row r of the factor column's block at point t is row t·10000 + r of the column. -/
theorem col_apply (c : Dev nD) (t : Fin cfg5.N) (r : Fin 10000) :
    (iblk5 V c 1 t : Vec Ideal S10000x1 .f32) (ix2 r (0 : Fin 1))
      = (V c main_v12 : FVec Ideal S100000x1 .f32) (ix2 (blockRow (blockOf t) r) (0 : Fin 1)) := by
  obtain ⟨-, -, e2, e3, -⟩ := idx_facts t
  unfold iblk5
  rw [View.read_apply]
  show V c main_v12 _ = V c main_v12 _
  refine congrArg (V c main_v12) (funext fun a => Fin.ext ?_)
  match a with
  | ⟨0, _⟩ => show win5_1.index t (0 : Fin 2) * 10000 + 1 * r.val = t.val * 10000 + r.val; rw [e2]; omega
  | ⟨1, _⟩ => show win5_1.index t (1 : Fin 2) * 1 + 1 * 0 = 0; rw [e3]

/-- The weight's one block is the weight. -/
theorem weight_eq (c : Dev nD) (t : Fin cfg5.N) :
    (iblk5 V c 2 t : Vec Ideal S128x128 .f32) = (V c main_arg7 : FVec Ideal S128x128 .f32) := by
  obtain ⟨-, -, -, -, e4, e5, -⟩ := idx_facts t
  funext j
  unfold iblk5
  rw [View.read_apply]
  show V c main_arg7 _ = V c main_arg7 _
  refine congrArg (V c main_arg7) (funext fun a => Fin.ext ?_)
  match a with
  | ⟨0, _⟩ => show win5_2.index t (0 : Fin 2) * 128 + 1 * (j 0).val = (j 0).val; rw [e4]; omega
  | ⟨1, _⟩ => show win5_2.index t (1 : Fin 2) * 128 + 1 * (j 1).val = (j 1).val; rw [e5]; omega

/-- The bias's one block is the bias. -/
theorem bias_eq (c : Dev nD) (t : Fin cfg5.N) :
    (iblk5 V c 3 t : Vec Ideal S128 .f32) = (V c main_arg8 : FVec Ideal S128 .f32) := by
  obtain ⟨-, -, -, -, -, -, e6, -⟩ := idx_facts t
  funext j
  unfold iblk5
  rw [View.read_apply]
  show V c main_arg8 _ = V c main_arg8 _
  refine congrArg (V c main_arg8) (funext fun a => Fin.ext ?_)
  match a with
  | ⟨0, _⟩ => show win5_3.index t (0 : Fin 1) * 128 + 1 * (j 0).val = (j 0).val; rw [e6]; omega

/-- Entry (r, q) of the result's block at point t is entry (t·10000 + r, q) of the result array. -/
theorem out_emb (t : Fin cfg5.N) (r : Fin 10000) (q : Fin 128) :
    ((cfg5.win 4).blk t).view.emb (ix2 r q : S10000x128.Idx) = (ix2 (blockRow (blockOf t) r) q : S100000x128.Idx) := by
  obtain ⟨-, -, -, -, -, -, -, e7, e8⟩ := idx_facts t
  funext a; apply Fin.ext
  match a with
  | ⟨0, _⟩ => show win5_4.index t (0 : Fin 2) * 10000 + 1 * r.val = t.val * 10000 + r.val; rw [e7]; omega
  | ⟨1, _⟩ => show win5_4.index t (1 : Fin 2) * 128 + 1 * q.val = q.val; rw [e8]; omega

/-- WHAT POINT t WRITES BACK is block t of the result function of the arrays as the region finds them: every entry
    of a row of the result depends on that row of the aggregate and of the column only. -/
theorem flushed_eq (c : Dev nD) (t : Fin cfg5.N) :
    (dat5 V c).flushed 4 t = ((cfg5.win 4).blk t).view.read (Elt Ideal)
      (result (V c main_v47) (V c main_v12) (V c main_arg7) (V c main_arg8)) := by
  show (cfg5.win 4).cut (grid5.coords t) ((dat5 V c).after 4 t) = _
  rw [after5_4]
  unfold out5_4
  rw [View.canon_unit_zero hz2]
  simp only [View.ld_unit_zero (S := S10000x128) hz2, View.ld_unit_zero (S := S10000x1) hz2,
    View.ld_unit_zero (S := S128x128) hz2, View.ld_unit_zero (S := S128) hz1]
  funext j
  obtain ⟨r, q, rfl⟩ : ∃ (r : Fin 10000) (q : Fin 128), j = ix2 r q := ⟨j 0, j 1, eq_ix2 j⟩
  rw [View.read_apply]
  show k5_pay1 (iblk5 V c 0 t) (iblk5 V c 1 t) (iblk5 V c 2 t) (iblk5 V c 3 t) (ix2 r q)
    = result (V c main_v47) (V c main_v12) (V c main_arg7) (V c main_arg8) (((cfg5.win 4).blk t).view.emb (ix2 r q))
  rw [out_emb t r q]
  refine (stored_apply (iblk5 V c 0 t) (iblk5 V c 1 t) (iblk5 V c 2 t) (iblk5 V c 3 t) r q).trans ?_
  refine Eq.trans ?_ (result_apply (V c main_v47) (V c main_v12) (V c main_arg7) (V c main_arg8) (blockRow (blockOf t) r) q).symm
  exact affineAt_congr (V c main_v47) (V c main_v12) (iblk5 V c 0 t) (iblk5 V c 1 t) (V c main_arg7) (iblk5 V c 2 t)
    (V c main_arg8) (iblk5 V c 3 t) (blockRow (blockOf t) r) r (fun k => agg_apply V c t r k) (col_apply V c t r)
    (weight_eq V c t) (bias_eq V c t) q

/-- An index of the result array is in point t's block iff its row is among the block's rows. -/
theorem mem_blk (t : Fin cfg5.N) (i : S100000x128.Idx) :
    i ∈ ((cfg5.win 4).blk t).view.set ↔ ∀ a : Fin 2, win5_4.index t a * S10000x128.size a ≤ (i a).val
      ∧ (i a).val < win5_4.index t a * S10000x128.size a + S10000x128.size a := by
  show i ∈ ((View.whole main_v48).slice (win5_4.rect t)).set ↔ _
  rw [View.set_slice_whole, Rect.mem_set_unit]
  exact Iff.rfl

/-- THE RESULT ARRAY after the region: the ten row blocks tile it (row p lies in block p / 10000). -/
theorem final (c : Dev nD) :
    (dat5 V c).arrAt 4 cfg5.N = result (V c main_v47) (V c main_v12) (V c main_arg7) (V c main_arg8) :=
  (dat5 V c).arrAt_eq_of_cover 4 _ (fun t _ => flushed_eq V c t) fun i => by
    have h0 : (i 0).val < 100000 := (i 0).isLt
    have h1 : (i 1).val < 128 := (i 1).isLt
    have hN : cfg5.N = 10 := N_5
    refine ⟨⟨(i 0).val / 10000, by rw [hN]; omega⟩, flush5_4 _, ?_⟩
    obtain ⟨-, -, -, -, -, -, -, e7, e8⟩ := idx_facts ⟨(i 0).val / 10000, by rw [hN]; omega⟩
    rw [mem_blk]
    intro a
    match a with
    | ⟨0, _⟩ =>
      show win5_4.index _ (0 : Fin 2) * 10000 ≤ (i 0).val ∧ (i 0).val < win5_4.index _ (0 : Fin 2) * 10000 + 10000
      rw [e7]; show (i 0).val / 10000 * 10000 ≤ (i 0).val ∧ (i 0).val < (i 0).val / 10000 * 10000 + 10000; omega
    | ⟨1, _⟩ =>
      show win5_4.index _ (1 : Fin 2) * 128 ≤ (i 1).val ∧ (i 1).val < win5_4.index _ (1 : Fin 2) * 128 + 128
      rw [e8]; omega

end Cert.KernelIdeal.Dense5

end
-- ==== Proof.LibTypedRef.lean ====
/-
  Typed references: the transport between a value's type and its buffer's.
-/
import Idealize.ShloMosaic.Lib.StableHlo

namespace Cert.LibTypedRef

open Idealize.ShloMosaic Idealize.ShloMosaic.StableHlo

variable {sig : RefSig} {Val : EltTy → Type} {T : BufTy}

/-- A typed reference moves contents of its value's type `T` into its buffer's type and back along one equation of
    types; there and back is the identity.  (An operation of a module-local function, stated over typed references,
    writes its result through `toBuf` and the next one reads it through `ofBuf`: composed, the pair disappears, for any
    signature, value types and reference.) -/
theorem ofBuf_toBuf (x : TRef sig T) (v : T.Contents Val) : x.ofBuf (x.toBuf v) = v := by
  obtain ⟨r, rfl, _, _⟩ := x
  rfl

/-- And back and there. -/
theorem toBuf_ofBuf (x : TRef sig T) (v : x.ref.ty.Contents Val) : x.toBuf (x.ofBuf v) = v := by
  obtain ⟨r, rfl, _, _⟩ := x
  rfl

end Cert.LibTypedRef
-- ==== Proof.LibTypedRefSame.lean ====
/-
  Typed references taken at their buffer's own type: the transport is along a reflexive equation.
-/
import Idealize.ShloMosaic.Lib.StableHlo

namespace Cert.LibTypedRefSame

open Idealize.ShloMosaic Idealize.ShloMosaic.StableHlo

variable {sig : RefSig} {Val : EltTy → Type}

/-- A typed reference whose value type is its buffer's own type moves contents into the buffer along a reflexive
    equation of types, that is, nowhere. Stated at `T := r.ty` so that it holds by definition; at a use site where the
    value type is a literal that only UNFOLDS to `r.ty`, rewrite with it by `erw`, which may unfold the buffer's type
    (`rw` and `simp` compare the two types without unfolding and find no instance). Any signature, value types and
    reference. -/
theorem toBuf_same (r : Ref sig .tc) (h : r.ty = r.ty) (hd : r.space ≠ .host) (hu : r.isScoped = false)
    (v : r.ty.Contents Val) : (TRef.of (T := r.ty) r h hd hu).toBuf v = v := rfl

/-- And out of the buffer likewise. -/
theorem ofBuf_same (r : Ref sig .tc) (h : r.ty = r.ty) (hd : r.space ≠ .host) (hu : r.isScoped = false)
    (v : r.ty.Contents Val) : (TRef.of (T := r.ty) r h hd hu).ofBuf v = v := rfl

end Cert.LibTypedRefSame
-- ==== Proof.KernelValue.lean ====
/-
  What the six-region program leaves in its result buffer, read back through its segments: the network of
  Proof/Network.lean applied to the nine arguments.

  @main alternates stretches of host operations with the six regions.  Before the first region the host computes the
  two columns of degree factors (from src and from dst); no later segment writes them, nor any argument, so from the
  first region's entry on those eleven buffers hold the same contents at every segment boundary (the record Kept).
  Then, layer by layer: a row-scaling region leaves the features scaled by the out-degree column (Proof/Scale*.lean),
  the host stretch after it gathers and scatter-adds them along the edges, a dense region leaves the affine image of
  that aggregate scaled by the in-degree column, rectified in the first two layers (Proof/Dense*.lean).  Each boundary's
  contents at the buffer the next segment reads is the previous value with one more piece applied; after the sixth region
  the result buffer holds the whole composition.
-/
import proofs.«152195_j21105469293089_1_alg».proof.Proof.Gen.KernelIdeal.Frame
import proofs.«152195_j21105469293089_1_alg».proof.Proof.Network
import proofs.«152195_j21105469293089_1_alg».proof.Proof.Scale0
import proofs.«152195_j21105469293089_1_alg».proof.Proof.Dense1
import proofs.«152195_j21105469293089_1_alg».proof.Proof.Scale2
import proofs.«152195_j21105469293089_1_alg».proof.Proof.Dense3
import proofs.«152195_j21105469293089_1_alg».proof.Proof.Scale4
import proofs.«152195_j21105469293089_1_alg».proof.Proof.Dense5
import proofs.«152195_j21105469293089_1_alg».proof.Proof.LibTypedRef
import proofs.«152195_j21105469293089_1_alg».proof.Proof.LibTypedRefSame
import Idealize.ShloMosaic.Lib.StableHlo.Run

set_option maxRecDepth 16384

noncomputable section

namespace Cert.KernelIdeal.Value

open Cert.KernelIdeal Cert.KernelIdeal.Gen Cert.GraphLayer
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The buffers nothing writes once the first region is entered -/

/-- The arguments and the two columns of degree factors, at contents W. -/
structure Kept (W : Valuation τ sig (Elt Ideal)) : Prop where
  x : W (Proc.devRef .tc main_arg0) = m ((c : Thread nD τ).loc main_arg0)
  src : W (Proc.devRef .tc main_arg1) = m ((c : Thread nD τ).loc main_arg1)
  dst : W (Proc.devRef .tc main_arg2) = m ((c : Thread nD τ).loc main_arg2)
  w0 : W (Proc.devRef .tc main_arg3) = m ((c : Thread nD τ).loc main_arg3)
  b0 : W (Proc.devRef .tc main_arg4) = m ((c : Thread nD τ).loc main_arg4)
  w1 : W (Proc.devRef .tc main_arg5) = m ((c : Thread nD τ).loc main_arg5)
  b1 : W (Proc.devRef .tc main_arg6) = m ((c : Thread nD τ).loc main_arg6)
  w2 : W (Proc.devRef .tc main_arg7) = m ((c : Thread nD τ).loc main_arg7)
  b2 : W (Proc.devRef .tc main_arg8) = m ((c : Thread nD τ).loc main_arg8)
  ns : (W (Proc.devRef .tc main_v9) : FVec Ideal NodeCol .f32) = nodeCol (degNorm (m ((c : Thread nD τ).loc main_arg1)))
  nd : (W (Proc.devRef .tc main_v12) : FVec Ideal NodeCol .f32) = nodeCol (degNorm (m ((c : Thread nD τ).loc main_arg2)))

/-- Those eleven buffers. -/
def keptRefs : List (Ref sig .tc) :=
  [main_arg0, main_arg1, main_arg2, main_arg3, main_arg4, main_arg5, main_arg6, main_arg7, main_arg8, main_v9, main_v12]

/-- Contents that agree with kept contents on the eleven buffers are kept contents. -/
theorem Kept.of_eq {W W' : Valuation τ sig (Elt Ideal)} (k : Kept m c W)
    (h : ∀ b ∈ keptRefs, W' (Proc.devRef .tc b) = W (Proc.devRef .tc b)) : Kept m c W' where
  x := (h main_arg0 (by simp [keptRefs])).trans k.x
  src := (h main_arg1 (by simp [keptRefs])).trans k.src
  dst := (h main_arg2 (by simp [keptRefs])).trans k.dst
  w0 := (h main_arg3 (by simp [keptRefs])).trans k.w0
  b0 := (h main_arg4 (by simp [keptRefs])).trans k.b0
  w1 := (h main_arg5 (by simp [keptRefs])).trans k.w1
  b1 := (h main_arg6 (by simp [keptRefs])).trans k.b1
  w2 := (h main_arg7 (by simp [keptRefs])).trans k.w2
  b2 := (h main_arg8 (by simp [keptRefs])).trans k.b2
  ns := (h main_v9 (by simp [keptRefs])).trans k.ns
  nd := (h main_v12 (by simp [keptRefs])).trans k.nd

/-- One case per kept buffer. -/
local macro "each_kept" hb:ident : tactic =>
  `(tactic| (simp only [keptRefs, List.mem_cons, List.mem_singleton, List.not_mem_nil, or_false] at $hb:ident
             rcases $hb:ident with h | h | h | h | h | h | h | h | h | h | h <;> subst h))

/-! ## The entry of the first region: the degree factors as columns -/

/-- The out-degree factors as a column: the host recasts the vector as a column, which is the vector laid out as a column. -/
theorem nsCol5 : (W5 m ρ c (Proc.devRef .tc main_v9) : FVec Ideal NodeCol .f32)
    = nodeCol (degNorm (m ((c : Thread nD τ).loc main_arg1))) := by
  have e : (W5 m ρ c (Proc.devRef .tc main_v9) : FVec Ideal NodeCol .f32)
      = shapeCast NodeCol (degNorm (m ((c : Thread nD τ).loc main_arg1))) shapeCasts_S100000_S100000x1 := by
    dsimp only [W5, W4, W3, W2, W1, hostOps0_4, hostOps0_3, hostOps0_2, hostOps0_1, hostOps0]
    after_results
    simp only [Cert.LibTypedRef.ofBuf_toBuf]
    erw [Cert.LibTypedRefSame.toBuf_same, Cert.LibTypedRefSame.ofBuf_same, Cert.LibTypedRefSame.ofBuf_same]
    rfl
  exact e.trans (Cert.Lib.BcastInDim.vecAsCol_eq_vecToCol _ shapeCasts_S100000_S100000x1 nodesToCol)

/-- The in-degree factors as a column: the host recasts the vector as a column, which is the vector laid out as a column. -/
theorem ndCol5 : (W5 m ρ c (Proc.devRef .tc main_v12) : FVec Ideal NodeCol .f32)
    = nodeCol (degNorm (m ((c : Thread nD τ).loc main_arg2))) := by
  have e : (W5 m ρ c (Proc.devRef .tc main_v12) : FVec Ideal NodeCol .f32)
      = shapeCast NodeCol (degNorm (m ((c : Thread nD τ).loc main_arg2))) shapeCasts_S100000_S100000x1 := by
    dsimp only [W5, W4, W3, W2, W1, hostOps0_4, hostOps0_3, hostOps0_2, hostOps0_1, hostOps0]
    after_results
    simp only [Cert.LibTypedRef.ofBuf_toBuf]
    erw [Cert.LibTypedRefSame.toBuf_same, Cert.LibTypedRefSame.ofBuf_same, Cert.LibTypedRefSame.ofBuf_same]
    rfl
  exact e.trans (Cert.Lib.BcastInDim.vecAsCol_eq_vecToCol _ shapeCasts_S100000_S100000x1 nodesToCol)

/-- The host stretches before the first region leave the arguments as launched and the two factor columns. -/
theorem kept5 : Kept m c (W5 m ρ c) :=
  ⟨by dsimp only [W5, W4, W3, W2, W1, hostOps0_4, hostOps0_3, hostOps0_2, hostOps0_1, hostOps0]; after_results <;> rfl,
   by dsimp only [W5, W4, W3, W2, W1, hostOps0_4, hostOps0_3, hostOps0_2, hostOps0_1, hostOps0]; after_results <;> rfl,
   by dsimp only [W5, W4, W3, W2, W1, hostOps0_4, hostOps0_3, hostOps0_2, hostOps0_1, hostOps0]; after_results <;> rfl,
   by dsimp only [W5, W4, W3, W2, W1, hostOps0_4, hostOps0_3, hostOps0_2, hostOps0_1, hostOps0]; after_results <;> rfl,
   by dsimp only [W5, W4, W3, W2, W1, hostOps0_4, hostOps0_3, hostOps0_2, hostOps0_1, hostOps0]; after_results <;> rfl,
   by dsimp only [W5, W4, W3, W2, W1, hostOps0_4, hostOps0_3, hostOps0_2, hostOps0_1, hostOps0]; after_results <;> rfl,
   by dsimp only [W5, W4, W3, W2, W1, hostOps0_4, hostOps0_3, hostOps0_2, hostOps0_1, hostOps0]; after_results <;> rfl,
   by dsimp only [W5, W4, W3, W2, W1, hostOps0_4, hostOps0_3, hostOps0_2, hostOps0_1, hostOps0]; after_results <;> rfl,
   by dsimp only [W5, W4, W3, W2, W1, hostOps0_4, hostOps0_3, hostOps0_2, hostOps0_1, hostOps0]; after_results <;> rfl,
   nsCol5 m ρ c, ndCol5 m ρ c⟩

/-! ## Every later boundary keeps them -/

theorem kept6 : Kept m c (W6 m ρ c) := (kept5 m ρ c).of_eq m c fun b hb => by
  each_kept hb <;> first
    | exact W6_of_ne m ρ c _ (by decide)
    | exact (W6_arr m ρ c 0).trans (((dat0 (V5 m ρ) c).arrAt_in 0 rfl _).trans (A_eq0 (V5 m ρ) c 0))
    | exact (W6_arr m ρ c 1).trans (((dat0 (V5 m ρ) c).arrAt_in 1 rfl _).trans (A_eq0 (V5 m ρ) c 1))
theorem kept7 : Kept m c (W7 m ρ c) := (kept6 m ρ c).of_eq m c fun b hb => by
  each_kept hb <;> (dsimp only [W7, hostOps1]; after_results)
theorem kept8 : Kept m c (W8 m ρ c) := (kept7 m ρ c).of_eq m c fun b hb => by
  each_kept hb <;> first
    | exact W8_of_ne m ρ c _ (by decide)
    | exact (W8_arr m ρ c 1).trans (((dat1 (V7 m ρ) c).arrAt_in 1 rfl _).trans (A_eq1 (V7 m ρ) c 1))
    | exact (W8_arr m ρ c 2).trans (((dat1 (V7 m ρ) c).arrAt_in 2 rfl _).trans (A_eq1 (V7 m ρ) c 2))
    | exact (W8_arr m ρ c 3).trans (((dat1 (V7 m ρ) c).arrAt_in 3 rfl _).trans (A_eq1 (V7 m ρ) c 3))
theorem kept9 : Kept m c (W9 m ρ c) := (kept8 m ρ c).of_eq m c fun b hb => by
  each_kept hb <;> first
    | exact W9_of_ne m ρ c _ (by decide)
    | exact (W9_arr m ρ c 1).trans (((dat2 (V8 m ρ) c).arrAt_in 1 rfl _).trans (A_eq2 (V8 m ρ) c 1))
theorem kept10 : Kept m c (W10 m ρ c) := (kept9 m ρ c).of_eq m c fun b hb => by
  each_kept hb <;> (dsimp only [W10, hostOps3]; after_results)
theorem kept11 : Kept m c (W11 m ρ c) := (kept10 m ρ c).of_eq m c fun b hb => by
  each_kept hb <;> first
    | exact W11_of_ne m ρ c _ (by decide)
    | exact (W11_arr m ρ c 1).trans (((dat3 (V10 m ρ) c).arrAt_in 1 rfl _).trans (A_eq3 (V10 m ρ) c 1))
    | exact (W11_arr m ρ c 2).trans (((dat3 (V10 m ρ) c).arrAt_in 2 rfl _).trans (A_eq3 (V10 m ρ) c 2))
    | exact (W11_arr m ρ c 3).trans (((dat3 (V10 m ρ) c).arrAt_in 3 rfl _).trans (A_eq3 (V10 m ρ) c 3))
theorem kept12 : Kept m c (W12 m ρ c) := (kept11 m ρ c).of_eq m c fun b hb => by
  each_kept hb <;> first
    | exact W12_of_ne m ρ c _ (by decide)
    | exact (W12_arr m ρ c 1).trans (((dat4 (V11 m ρ) c).arrAt_in 1 rfl _).trans (A_eq4 (V11 m ρ) c 1))
theorem kept13 : Kept m c (W13 m ρ c) := (kept12 m ρ c).of_eq m c fun b hb => by
  each_kept hb <;> (dsimp only [W13, hostOps5]; after_results)

/-! ## The values, layer by layer -/

/-- The out-degree and in-degree factor columns, and the three layers' outputs before the last. -/
abbrev nsCol : FVec Ideal NodeCol .f32 := nodeCol (degNorm (m ((c : Thread nD τ).loc main_arg1)))
abbrev ndCol : FVec Ideal NodeCol .f32 := nodeCol (degNorm (m ((c : Thread nD τ).loc main_arg2)))
abbrev hid1 : FVec Ideal Feat .f32 :=
  reluFn (layer (m ((c : Thread nD τ).loc main_arg0)) (m ((c : Thread nD τ).loc main_arg1)) (m ((c : Thread nD τ).loc main_arg2))
    (nsCol m c) (ndCol m c) (m ((c : Thread nD τ).loc main_arg3)) (m ((c : Thread nD τ).loc main_arg4)))
abbrev hid2 : FVec Ideal Feat .f32 :=
  reluFn (layer (hid1 m c) (m ((c : Thread nD τ).loc main_arg1)) (m ((c : Thread nD τ).loc main_arg2))
    (nsCol m c) (ndCol m c) (m ((c : Thread nD τ).loc main_arg5)) (m ((c : Thread nD τ).loc main_arg6)))

/-- A host stretch between a scaling region and a dense region is the aggregation along the edges. -/
theorem aggregate_spelling (h : FVec Ideal Feat .f32) (src dst : (⟨Edges, .i32⟩ : BufTy).Contents (Elt Ideal)) :
    Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      = aggregate h src dst := rfl

theorem at6 : (W6 m ρ c (Proc.devRef .tc main_v13) : FVec Ideal Feat .f32)
    = scaleFn (m ((c : Thread nD τ).loc main_arg0)) (nsCol m c) := by
  have h1 : V5 m ρ c main_arg0 = _ := (kept5 m ρ c).x
  have h2 : (V5 m ρ c main_v9 : FVec Ideal NodeCol .f32) = _ := (kept5 m ρ c).ns
  refine (W6_arr m ρ c 2).trans ((Cert.KernelIdeal.Scale0.final (V5 m ρ) c).trans ?_)
  rw [h1, h2]

/-- The host stretch after the first scaling region is the aggregation along the edges of what that region left. -/
theorem host7 : (W7 m ρ c (Proc.devRef .tc main_v23) : FVec Ideal Feat .f32)
    = aggregate (W6 m ρ c (Proc.devRef .tc main_v13)) (W6 m ρ c (Proc.devRef .tc main_arg1))
        (W6 m ρ c (Proc.devRef .tc main_arg2)) := by
  dsimp only [W7, hostOps1]
  after_results
  exact aggregate_spelling _ _ _

theorem at7 : (W7 m ρ c (Proc.devRef .tc main_v23) : FVec Ideal Feat .f32)
    = aggregate (scaleFn (m ((c : Thread nD τ).loc main_arg0)) (nsCol m c)) (m ((c : Thread nD τ).loc main_arg1)) (m ((c : Thread nD τ).loc main_arg2)) := by
  rw [host7 m ρ c, at6 m ρ c, (kept6 m ρ c).src, (kept6 m ρ c).dst]

theorem at8 : (W8 m ρ c (Proc.devRef .tc main_v24) : FVec Ideal Feat .f32) = hid1 m c := by
  have h1 : (V7 m ρ c main_v23 : FVec Ideal Feat .f32) = _ := at7 m ρ c
  have h2 : (V7 m ρ c main_v12 : FVec Ideal NodeCol .f32) = _ := (kept7 m ρ c).nd
  have h3 : V7 m ρ c main_arg3 = _ := (kept7 m ρ c).w0
  have h4 : V7 m ρ c main_arg4 = _ := (kept7 m ρ c).b0
  refine (W8_arr m ρ c 4).trans ((Cert.KernelIdeal.Dense1.final (V7 m ρ) c).trans ?_)
  rw [h1, h2, h3, h4]
  rfl

theorem at9 : (W9 m ρ c (Proc.devRef .tc main_v25) : FVec Ideal Feat .f32) = scaleFn (hid1 m c) (nsCol m c) := by
  have h1 : (V8 m ρ c main_v24 : FVec Ideal Feat .f32) = _ := at8 m ρ c
  have h2 : (V8 m ρ c main_v9 : FVec Ideal NodeCol .f32) = _ := (kept8 m ρ c).ns
  refine (W9_arr m ρ c 2).trans ((Cert.KernelIdeal.Scale2.final (V8 m ρ) c).trans ?_)
  rw [h1, h2]

/-- The host stretch after the second scaling region, likewise. -/
theorem host10 : (W10 m ρ c (Proc.devRef .tc main_v35) : FVec Ideal Feat .f32)
    = aggregate (W9 m ρ c (Proc.devRef .tc main_v25)) (W9 m ρ c (Proc.devRef .tc main_arg1))
        (W9 m ρ c (Proc.devRef .tc main_arg2)) := by
  dsimp only [W10, hostOps3]
  after_results
  exact aggregate_spelling _ _ _

theorem at10 : (W10 m ρ c (Proc.devRef .tc main_v35) : FVec Ideal Feat .f32)
    = aggregate (scaleFn (hid1 m c) (nsCol m c)) (m ((c : Thread nD τ).loc main_arg1)) (m ((c : Thread nD τ).loc main_arg2)) := by
  rw [host10 m ρ c, at9 m ρ c, (kept9 m ρ c).src, (kept9 m ρ c).dst]

theorem at11 : (W11 m ρ c (Proc.devRef .tc main_v36) : FVec Ideal Feat .f32) = hid2 m c := by
  have h1 : (V10 m ρ c main_v35 : FVec Ideal Feat .f32) = _ := at10 m ρ c
  have h2 : (V10 m ρ c main_v12 : FVec Ideal NodeCol .f32) = _ := (kept10 m ρ c).nd
  have h3 : V10 m ρ c main_arg5 = _ := (kept10 m ρ c).w1
  have h4 : V10 m ρ c main_arg6 = _ := (kept10 m ρ c).b1
  refine (W11_arr m ρ c 4).trans ((Cert.KernelIdeal.Dense3.final (V10 m ρ) c).trans ?_)
  rw [h1, h2, h3, h4]
  rfl

theorem at12 : (W12 m ρ c (Proc.devRef .tc main_v37) : FVec Ideal Feat .f32) = scaleFn (hid2 m c) (nsCol m c) := by
  have h1 : (V11 m ρ c main_v36 : FVec Ideal Feat .f32) = _ := at11 m ρ c
  have h2 : (V11 m ρ c main_v9 : FVec Ideal NodeCol .f32) = _ := (kept11 m ρ c).ns
  refine (W12_arr m ρ c 2).trans ((Cert.KernelIdeal.Scale4.final (V11 m ρ) c).trans ?_)
  rw [h1, h2]

/-- The host stretch after the third scaling region, likewise. -/
theorem host13 : (W13 m ρ c (Proc.devRef .tc main_v47) : FVec Ideal Feat .f32)
    = aggregate (W12 m ρ c (Proc.devRef .tc main_v37)) (W12 m ρ c (Proc.devRef .tc main_arg1))
        (W12 m ρ c (Proc.devRef .tc main_arg2)) := by
  dsimp only [W13, hostOps5]
  after_results
  exact aggregate_spelling _ _ _

theorem at13 : (W13 m ρ c (Proc.devRef .tc main_v47) : FVec Ideal Feat .f32)
    = aggregate (scaleFn (hid2 m c) (nsCol m c)) (m ((c : Thread nD τ).loc main_arg1)) (m ((c : Thread nD τ).loc main_arg2)) := by
  rw [host13 m ρ c, at12 m ρ c, (kept12 m ρ c).src, (kept12 m ρ c).dst]

/-- The last region leaves the third layer, unrectified. -/
theorem at14 : (W14 m ρ c (Proc.devRef .tc main_v48) : FVec Ideal Feat .f32)
    = layer (hid2 m c) (m ((c : Thread nD τ).loc main_arg1)) (m ((c : Thread nD τ).loc main_arg2)) (nsCol m c) (ndCol m c)
        (m ((c : Thread nD τ).loc main_arg7)) (m ((c : Thread nD τ).loc main_arg8)) := by
  have h1 : (V13 m ρ c main_v47 : FVec Ideal Feat .f32) = _ := at13 m ρ c
  have h2 : (V13 m ρ c main_v12 : FVec Ideal NodeCol .f32) = _ := (kept13 m ρ c).nd
  have h3 : V13 m ρ c main_arg7 = _ := (kept13 m ρ c).w2
  have h4 : V13 m ρ c main_arg8 = _ := (kept13 m ρ c).b2
  refine (W14_arr m ρ c 4).trans ((Cert.KernelIdeal.Dense5.final (V13 m ρ) c).trans ?_)
  rw [h1, h2, h3, h4]
  rfl

/-- The network is its three layers. -/
theorem forward_eq : forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    = layer (hid2 m c) (m ((c : Thread nD τ).loc main_arg1)) (m ((c : Thread nD τ).loc main_arg2)) (nsCol m c) (ndCol m c)
        (m ((c : Thread nD τ).loc main_arg7)) (m ((c : Thread nD τ).loc main_arg8)) := by
  unfold forward
  rfl

/-- THE RESULT BUFFER after the last region: the network of the nine arguments. -/
theorem result_eq : (W14 m ρ c (Proc.devRef .tc main_v48) : FVec Ideal Feat .f32)
    = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (at14 m ρ c).trans (forward_eq m c).symm

end Cert.KernelIdeal.Value

end
-- ==== Proof.RefValue.lean ====
/-
  The reference's result, from its generated run: the composed term of its 95 host operations IS the network of
  Proof/Network.lean applied to the nine arguments, spelling for spelling.

  The reference lays each degree-factor vector out as a column and spreads it over the columns before multiplying, takes
  the product with the weight by dot_general, lays the bias out as a row and spreads it down the rows, and rectifies by
  a maximum against a spread zero: these are the host spellings the network's pieces are defined by, so the two terms
  are one term once the pieces' names are unfolded.  Nothing is computed.
-/
import proofs.«152195_j21105469293089_1_alg».proof.Proof.Gen.ReferenceIdeal.Run
import proofs.«152195_j21105469293089_1_alg».proof.Proof.Network

set_option maxRecDepth 16384

noncomputable section

namespace Cert.ReferenceIdeal.RefValue

open Cert.ReferenceIdeal Cert.ReferenceIdeal.Gen Cert.ReferenceIdeal.Value Cert.GraphLayer
open Idealize.ShloMosaic Idealize.ShloMosaic.TcCoe Idealize.SL.Sem

variable (m : (ℓ : Loc nD τ sig) → Buf (Elt Ideal) ℓ) (c : Dev nD)

set_option maxHeartbeats 1000000 in
/-- The run's result term is the network of the arguments. -/
theorem result_eq : (res_out0 (F := Ideal) m c : FVec Ideal Feat .f32)
    = forward (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  show res_main_v72 (F := Ideal) m c = _
  unfold res_main_v72
  rfl

end Cert.ReferenceIdeal.RefValue

end
-- ==== Proof.lean ====
/-
  A three-layer degree-normalised graph convolution over 100000 nodes and 1600000 edges, its row scalings and dense
  layers in six blocked kernel regions, against the same network written with whole-array operations.

  Both programs count each node's out- and in-degree by a scatter-add of ones, take 1/sqrt(max(degree, 1)), and run three
  layers: scale the features row by row by the out-degree factor, gather each edge's source row and add it into the
  edge's destination row, scale the aggregate by the in-degree factor, multiply by the layer's weight and add its bias;
  the first two layers are rectified.  The kernel program does the two row scalings and the product of every layer in
  regions that visit ten blocks of 10000 rows; the reference does them on the whole arrays.

  At the exact values the two are the same function, Proof/Network.lean's forward, with no law of arithmetic between
  them: a row of a region's result depends on the same row of its operands only, each entry is the same sum of the same
  products on both sides, and the blocks tile the arrays.  So the finiteness of the inputs is never used.  The kernel
  program's result buffer is read back through its segments in Proof/KernelValue.lean (over the regions' values,
  Proof/Scale*.lean and Proof/Dense*.lean, and the launch of Proof/KernelNamed.lean); the reference's generated run
  states its result as one term, which is the network by unfolding (Proof/RefValue.lean).  The ideal pass rewrote
  nothing, so the idealization claim is empty; the frames are the generated ones, the reference's its generated run with
  the result dropped.
-/
import proofs.«152195_j21105469293089_1_alg».proof.Defs
import proofs.«152195_j21105469293089_1_alg».proof.Proof.Gen.Kernel
import proofs.«152195_j21105469293089_1_alg».proof.Proof.Gen.Kernel.Skeleton
import proofs.«152195_j21105469293089_1_alg».proof.Proof.Gen.Kernel.Launch
import proofs.«152195_j21105469293089_1_alg».proof.Proof.Gen.Kernel.Points
import proofs.«152195_j21105469293089_1_alg».proof.Proof.Gen.Kernel.Frame
import proofs.«152195_j21105469293089_1_alg».proof.Proof.Gen.KernelIdeal
import proofs.«152195_j21105469293089_1_alg».proof.Proof.Gen.KernelIdeal.Skeleton
import proofs.«152195_j21105469293089_1_alg».proof.Proof.Gen.KernelIdeal.Launch
import proofs.«152195_j21105469293089_1_alg».proof.Proof.Gen.KernelIdeal.Points
import proofs.«152195_j21105469293089_1_alg».proof.Proof.Gen.KernelIdeal.Frame
import proofs.«152195_j21105469293089_1_alg».proof.Proof.Gen.ReferenceIdeal
import proofs.«152195_j21105469293089_1_alg».proof.Proof.Gen.Pre_finite_inputs
import proofs.«152195_j21105469293089_1_alg».proof.Proof.Gen.ReferenceIdeal.Run
import proofs.«152195_j21105469293089_1_alg».proof.Proof.KernelNamed
import proofs.«152195_j21105469293089_1_alg».proof.Proof.KernelValue
import proofs.«152195_j21105469293089_1_alg».proof.Proof.RefValue
import Idealize.ShloMosaic.Adequacy
import Idealize.ShloMosaic.Init

noncomputable section

namespace Cert.Proof

open Idealize.ShloMosaic Idealize.ShloMosaic.TcCoe Idealize.SL.Sem Cert.GraphLayer

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the exact values both programs end with the network of their arguments in the result buffer, and the
    arguments agree. -/
theorem algebraic : Cert.algebraic_KernelIdeal_ReferenceIdeal := by
  intro m ρ m' ρ' _ hagree
  refine ⟨fun c => forward
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Value.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    refine (Cert.ReferenceIdeal.RefValue.result_eq m' c).trans ?_
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
